-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S2000000x1 : Shape := ⟨2, ![2000000, 1]⟩
abbrev S64x64 : Shape := ⟨2, ![64, 64]⟩
abbrev S64 : Shape := ⟨1, ![64]⟩
abbrev S1000000x1 : Shape := ⟨2, ![1000000, 1]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S2000000x1 : S_.BroadcastsInDim S2000000x1 (![] : Fin 0 → Fin S2000000x1.rank)
  reducesTo_S2000000x1_S_d0_1 : S2000000x1.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1000000x1 : S_.BroadcastsInDim S1000000x1 (![] : Fin 0 → Fin S1000000x1.rank)
  reducesTo_S1000000x1_S_d0_1 : S1000000x1.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x1 .f32) (main_arg9 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64x64 .f32) (main_arg6 : FVec F S64 .f32) (main_arg7 : FVec F S1000000x1 .f32) (main_arg8 : FVec F S64x1 .f32) (main_arg9 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S1000000x1 .f32 := Host.absf main_arg7
  let main_cst_10 : FVec F S_ .f32 := constant S_ .f32 0x7F800000#32
  let main_v30 : FVec F S1000000x1 .f32 := broadcastInDim S1000000x1 ![] bcast_S_S1000000x1 main_cst_10
  let main_v31 : IVec S1000000x1 1 := cmpf .olt main_v29 main_v30
  let main_c_11 : IVec S_ 1 := constantI S_ 1 1#1
  let main_v32 : IVec S_ 1 := (fun x v => Host.reduce IntOp.andi x v reducesTo_S1000000x1_S_d0_1 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1000000 32) (main_arg2 : FVec F S2000000x1 .f32) (main_arg3 : FVec F S64x64 .f32) (main_arg4 : FVec F S64 .f32) (main_arg5 : FVec F S64x64 .f32) (main_arg6 : FVec F S64 .f32) (main_arg7 : FVec F S1000000x1 .f32) (main_arg8 : FVec F S64x1 .f32) (main_arg9 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S2000000x1 .f32 := Host.absf main_arg2
  let main_cst_0 : FVec F S_ .f32 := constant S_ .f32 0x7F800000#32
  let main_v5 : FVec F S2000000x1 .f32 := broadcastInDim S2000000x1 ![] bcast_S_S2000000x1 main_cst_0
  let main_v6 : IVec S2000000x1 1 := cmpf .olt main_v4 main_v5
  let main_c_1 : IVec S_ 1 := constantI S_ 1 1#1
  let main_v7 : IVec S_ 1 := (fun x v => Host.reduce IntOp.andi x v reducesTo_S2000000x1_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1000000 : Shape := ⟨2, ![2, 1000000]⟩
abbrev S2000000x1 : Shape := ⟨2, ![2000000, 1]⟩
abbrev S64x64 : Shape := ⟨2, ![64, 64]⟩
abbrev S64 : Shape := ⟨1, ![64]⟩
abbrev S1000000x1 : Shape := ⟨2, ![1000000, 1]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S10000x64 : Shape := ⟨2, ![10000, 64]⟩
abbrev S1100000x64 : Shape := ⟨2, ![1100000, 64]⟩
abbrev S1x64 : Shape := ⟨2, ![1, 64]⟩
abbrev S1x1 : Shape := ⟨2, ![1, 1]⟩

abbrev nBuf : Space → Nat
  | .hbm => 84
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S2000000x1, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1000000x1, .f32⟩
  | .hbm, ⟨8, _⟩ => ⟨S64x1, .f32⟩
  | .hbm, ⟨9, _⟩ => ⟨S1, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S100000, .i32⟩
  | .hbm, ⟨15, _⟩ => ⟨S1100000, .i32⟩
  | .hbm, ⟨16, _⟩ => ⟨S1100000, .i32⟩
  | .hbm, ⟨17, _⟩ => ⟨S_, .f32⟩
  | .hbm, ⟨18, _⟩ => ⟨S1100000, .f32⟩
  | .hbm, ⟨19, _⟩ => ⟨S_, .f32⟩
  | .hbm, ⟨20, _⟩ => ⟨S100000, .f32⟩
  | .hbm, ⟨21, _⟩ => ⟨S1100000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1100000, .i32⟩
  | .hbm, ⟨29, _⟩ => ⟨S1100000, .i1⟩
  | .hbm, ⟨30, _⟩ => ⟨S_, .i32⟩
  | .hbm, ⟨31, _⟩ => ⟨S1100000, .i32⟩
  | .hbm, ⟨32, _⟩ => ⟨S1100000, .i32⟩
  | .hbm, ⟨33, _⟩ => ⟨S1100000, .i32⟩
  | .hbm, ⟨34, _⟩ => ⟨S1100000x1, .i32⟩
  | .hbm, ⟨35, _⟩ => ⟨S1100000, .f32⟩
  | .hbm, ⟨36, _⟩ => ⟨S_, .i32⟩
  | .hbm, ⟨37, _⟩ => ⟨S1100000, .i32⟩
  | .hbm, ⟨38, _⟩ => ⟨S1100000, .i1⟩
  | .hbm, ⟨39, _⟩ => ⟨S_, .i32⟩
  | .hbm, ⟨40, _⟩ => ⟨S1100000, .i32⟩
  | .hbm, ⟨41, _⟩ => ⟨S1100000, .i32⟩
  | .hbm, ⟨42, _⟩ => ⟨S1100000, .i32⟩
  | .hbm, ⟨43, _⟩ => ⟨S1100000x1, .i32⟩
  | .hbm, ⟨44, _⟩ => ⟨S1100000, .f32⟩
  | .hbm, ⟨45, _⟩ => ⟨S1100000, .f32⟩
  | .hbm, ⟨46, _⟩ => ⟨S100000x64, .f32⟩
  | .hbm, ⟨47, _⟩ => ⟨S_, .i32⟩
  | .hbm, ⟨48, _⟩ => ⟨S1100000, .i32⟩
  | .hbm, ⟨49, _⟩ => ⟨S1100000, .i1⟩
  | .hbm, ⟨50, _⟩ => ⟨S_, .i32⟩
  | .hbm, ⟨51, _⟩ => ⟨S1100000, .i32⟩
  | .hbm, ⟨52, _⟩ => ⟨S1100000, .i32⟩
  | .hbm, ⟨53, _⟩ => ⟨S1100000, .i32⟩
  | .hbm, ⟨54, _⟩ => ⟨S1100000x1, .i32⟩
  | .hbm, ⟨55, _⟩ => ⟨S1100000x64, .f32⟩
  | .hbm, ⟨56, _⟩ => ⟨S1100000x1, .f32⟩
  | .hbm, ⟨57, _⟩ => ⟨S1100000x64, .f32⟩
  | .hbm, ⟨58, _⟩ => ⟨S1100000x64, .f32⟩
  | .hbm, ⟨59, _⟩ => ⟨S_, .f32⟩
  | .hbm, ⟨60, _⟩ => ⟨S100000x64, .f32⟩
  | .hbm, ⟨61, _⟩ => ⟨S1100000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S_, .i32⟩
  | .hbm, ⟨66, _⟩ => ⟨S1100000, .i32⟩
  | .hbm, ⟨67, _⟩ => ⟨S1100000, .i1⟩
  | .hbm, ⟨68, _⟩ => ⟨S_, .i32⟩
  | .hbm, ⟨69, _⟩ => ⟨S1100000, .i32⟩
  | .hbm, ⟨70, _⟩ => ⟨S1100000, .i32⟩
  | .hbm, ⟨71, _⟩ => ⟨S1100000, .i32⟩
  | .hbm, ⟨72, _⟩ => ⟨S1100000x1, .i32⟩
  | .hbm, ⟨73, _⟩ => ⟨S1100000x64, .f32⟩
  | .hbm, ⟨74, _⟩ => ⟨S1100000x1, .f32⟩
  | .hbm, ⟨75, _⟩ => ⟨S1100000x64, .f32⟩
  | .hbm, ⟨76, _⟩ => ⟨S1100000x64, .f32⟩
  | .hbm, ⟨77, _⟩ => ⟨S_, .f32⟩
  | .hbm, ⟨78, _⟩ => ⟨S100000x64, .f32⟩
  | .hbm, ⟨79, _⟩ => ⟨S1100000x1, .i32⟩
  | .hbm, ⟨80, _⟩ => ⟨S100000x64, .f32⟩
  | .hbm, ⟨81, _⟩ => ⟨S1x64, .f32⟩
  | .hbm, ⟨82, _⟩ => ⟨S1x1, .f32⟩
  | .hbm, ⟨83, _⟩ => ⟨S1x1, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x1, .f32⟩
  | .local _ .vmem, ⟨15, _⟩ => ⟨S1x1, .f32⟩
  | .local _ .vmem, ⟨16, _⟩ => ⟨S1x1, .f32⟩
  | .local _ .vmem, ⟨17, _⟩ => ⟨S1x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_8 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v18 : BitVec 1 := Scalar.cmpi .eq arg0 c9_i32
  let v19 : BitVec 32 := Scalar.extui v18
  let c0_i32_9 : BitVec 32 := 0#32
  let v20 : BitVec 1 := Scalar.cmpi .ne v19 c0_i32_9
  v20

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S1_S1x1 : S1.ShapeCasts S1x1
  reduces_S10000x64_S64 : S10000x64.Reduces [0] S64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S10000x64_S64x64_S10000x64_1_0_0_1_n_n_wf : DotDims.WF S10000x64 S64x64 S10000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S1x64_S64x1_S1x1_1_0_0_1_n_n_wf : DotDims.WF S1x64 S64x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S1x1.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1000000 : Shape := ⟨2, ![2, 1000000]⟩
abbrev S2000000x1 : Shape := ⟨2, ![2000000, 1]⟩
abbrev S64x64 : Shape := ⟨2, ![64, 64]⟩
abbrev S64 : Shape := ⟨1, ![64]⟩
abbrev S1000000x1 : Shape := ⟨2, ![1000000, 1]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S1x1000000x1x1 : Shape := ⟨4, ![1, 1000000, 1, 1]⟩
abbrev S2x1000000x1x1 : Shape := ⟨4, ![2, 1000000, 1, 1]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩
abbrev S1x64 : Shape := ⟨2, ![1, 64]⟩
abbrev S1x1 : Shape := ⟨2, ![1, 1]⟩

abbrev nBuf : Space → Nat
  | .hbm => 137
  | .vmem => 0
  | .smem => 0
  | _ => 0

abbrev hbmTy0_0 (i : Nat) : BufTy := match i % 128 with
  | 0 => ⟨S100000x64, .f32⟩
  | 1 => ⟨S2x1000000, .i32⟩
  | 2 => ⟨S2000000x1, .f32⟩
  | 3 => ⟨S64x64, .f32⟩
  | 4 => ⟨S64, .f32⟩
  | 5 => ⟨S64x64, .f32⟩
  | 6 => ⟨S64, .f32⟩
  | 7 => ⟨S1000000x1, .f32⟩
  | 8 => ⟨S64x1, .f32⟩
  | 9 => ⟨S1, .f32⟩
  | 10 => ⟨S1x1000000, .i32⟩
  | 11 => ⟨S1000000, .i32⟩
  | 12 => ⟨S1x1000000, .i32⟩
  | 13 => ⟨S1000000, .i32⟩
  | 14 => ⟨S1x1000000x1x1, .f32⟩
  | 15 => ⟨S2x1000000x1x1, .f32⟩
  | 16 => ⟨S2000000x1, .f32⟩
  | 17 => ⟨S2000000x1, .f32⟩
  | 18 => ⟨S100000, .i32⟩
  | 19 => ⟨S1100000, .i32⟩
  | 20 => ⟨S1100000, .i32⟩
  | 21 => ⟨S_, .f32⟩
  | 22 => ⟨S1100000, .f32⟩
  | 23 => ⟨S_, .f32⟩
  | 24 => ⟨S100000, .f32⟩
  | 25 => ⟨S1100000x1, .i32⟩
  | 26 => ⟨S100000, .f32⟩
  | 27 => ⟨S_, .f32⟩
  | 28 => ⟨S100000, .f32⟩
  | 29 => ⟨S100000, .f32⟩
  | 30 => ⟨S100000, .f32⟩
  | 31 => ⟨S100000x64, .f32⟩
  | 32 => ⟨S_, .i32⟩
  | 33 => ⟨S1100000, .i32⟩
  | 34 => ⟨S1100000, .i1⟩
  | 35 => ⟨S_, .i32⟩
  | 36 => ⟨S1100000, .i32⟩
  | 37 => ⟨S1100000, .i32⟩
  | 38 => ⟨S1100000, .i32⟩
  | 39 => ⟨S1100000x1, .i32⟩
  | 40 => ⟨S1100000, .f32⟩
  | 41 => ⟨S_, .i32⟩
  | 42 => ⟨S1100000, .i32⟩
  | 43 => ⟨S1100000, .i1⟩
  | 44 => ⟨S_, .i32⟩
  | 45 => ⟨S1100000, .i32⟩
  | 46 => ⟨S1100000, .i32⟩
  | 47 => ⟨S1100000, .i32⟩
  | 48 => ⟨S1100000x1, .i32⟩
  | 49 => ⟨S1100000, .f32⟩
  | 50 => ⟨S1100000, .f32⟩
  | 51 => ⟨S1100000x1, .f32⟩
  | 52 => ⟨S_, .i32⟩
  | 53 => ⟨S1100000, .i32⟩
  | 54 => ⟨S1100000, .i1⟩
  | 55 => ⟨S_, .i32⟩
  | 56 => ⟨S1100000, .i32⟩
  | 57 => ⟨S1100000, .i32⟩
  | 58 => ⟨S1100000, .i32⟩
  | 59 => ⟨S1100000x1, .i32⟩
  | 60 => ⟨S1100000x64, .f32⟩
  | 61 => ⟨S1100000x64, .f32⟩
  | 62 => ⟨S1100000x64, .f32⟩
  | 63 => ⟨S_, .f32⟩
  | 64 => ⟨S100000x64, .f32⟩
  | 65 => ⟨S1100000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000, .i32⟩
  | 74 => ⟨S1100000, .i32⟩
  | 75 => ⟨S1100000, .i32⟩
  | 76 => ⟨S_, .f32⟩
  | 77 => ⟨S1100000, .f32⟩
  | 78 => ⟨S_, .f32⟩
  | 79 => ⟨S100000, .f32⟩
  | 80 => ⟨S1100000x1, .i32⟩
  | 81 => ⟨S100000, .f32⟩
  | 82 => ⟨S_, .f32⟩
  | 83 => ⟨S100000, .f32⟩
  | 84 => ⟨S100000, .f32⟩
  | 85 => ⟨S100000, .f32⟩
  | 86 => ⟨S100000x64, .f32⟩
  | 87 => ⟨S_, .i32⟩
  | 88 => ⟨S1100000, .i32⟩
  | 89 => ⟨S1100000, .i1⟩
  | 90 => ⟨S_, .i32⟩
  | 91 => ⟨S1100000, .i32⟩
  | 92 => ⟨S1100000, .i32⟩
  | 93 => ⟨S1100000, .i32⟩
  | 94 => ⟨S1100000x1, .i32⟩
  | 95 => ⟨S1100000, .f32⟩
  | 96 => ⟨S_, .i32⟩
  | 97 => ⟨S1100000, .i32⟩
  | 98 => ⟨S1100000, .i1⟩
  | 99 => ⟨S_, .i32⟩
  | 100 => ⟨S1100000, .i32⟩
  | 101 => ⟨S1100000, .i32⟩
  | 102 => ⟨S1100000, .i32⟩
  | 103 => ⟨S1100000x1, .i32⟩
  | 104 => ⟨S1100000, .f32⟩
  | 105 => ⟨S1100000, .f32⟩
  | 106 => ⟨S1100000x1, .f32⟩
  | 107 => ⟨S_, .i32⟩
  | 108 => ⟨S1100000, .i32⟩
  | 109 => ⟨S1100000, .i1⟩
  | 110 => ⟨S_, .i32⟩
  | 111 => ⟨S1100000, .i32⟩
  | 112 => ⟨S1100000, .i32⟩
  | 113 => ⟨S1100000, .i32⟩
  | 114 => ⟨S1100000x1, .i32⟩
  | 115 => ⟨S1100000x64, .f32⟩
  | 116 => ⟨S1100000x64, .f32⟩
  | 117 => ⟨S1100000x64, .f32⟩
  | 118 => ⟨S_, .f32⟩
  | 119 => ⟨S100000x64, .f32⟩
  | 120 => ⟨S1100000x1, .i32⟩
  | 121 => ⟨S100000x64, .f32⟩
  | 122 => ⟨S1x64, .f32⟩
  | 123 => ⟨S100000x64, .f32⟩
  | 124 => ⟨S100000x64, .f32⟩
  | 125 => ⟨S_, .f32⟩
  | 126 => ⟨S100000x64, .f32⟩
  | 127 => ⟨S100000x64, .f32⟩
  | _ => ⟨S100000x64, .f32⟩

abbrev hbmTy0_1 (i : Nat) : BufTy := match i % 128 with
  | 0 => ⟨S_, .f32⟩
  | 1 => ⟨S64, .f32⟩
  | 2 => ⟨S1x64, .f32⟩
  | 3 => ⟨S_, .f32⟩
  | 4 => ⟨S1x64, .f32⟩
  | 5 => ⟨S1x64, .f32⟩
  | 6 => ⟨S1x1, .f32⟩
  | 7 => ⟨S1x1, .f32⟩
  | 8 => ⟨S1x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_5 : Ref sig .tc := ⟨.hbm, 52, rfl⟩
abbrev main_v35 : Ref sig .tc := ⟨.hbm, 53, rfl⟩
abbrev main_v36 : Ref sig .tc := ⟨.hbm, 54, rfl⟩
abbrev main_c_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call0_cst : Ref sig .tc := ⟨.hbm, 70, rfl⟩
abbrev main_call0_v0 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_8 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_11 : Ref sig .tc := ⟨.hbm, 87, rfl⟩
abbrev main_v62 : Ref sig .tc := ⟨.hbm, 88, rfl⟩
abbrev main_v63 : Ref sig .tc := ⟨.hbm, 89, rfl⟩
abbrev main_c_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_13 : Ref sig .tc := ⟨.hbm, 96, rfl⟩
abbrev main_v69 : Ref sig .tc := ⟨.hbm, 97, rfl⟩
abbrev main_v70 : Ref sig .tc := ⟨.hbm, 98, rfl⟩
abbrev main_c_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c_15 : Ref sig .tc := ⟨.hbm, 107, rfl⟩
abbrev main_v78 : Ref sig .tc := ⟨.hbm, 108, rfl⟩
abbrev main_v79 : Ref sig .tc := ⟨.hbm, 109, rfl⟩
abbrev main_c_16 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_17 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_call1_cst : Ref sig .tc := ⟨.hbm, 125, rfl⟩
abbrev main_call1_v0 : Ref sig .tc := ⟨.hbm, 126, rfl⟩
abbrev main_v93 : Ref sig .tc := ⟨.hbm, 127, rfl⟩
abbrev main_cst_18 : Ref sig .tc := ⟨.hbm, 128, rfl⟩
abbrev main_v94 : Ref sig .tc := ⟨.hbm, 129, rfl⟩
abbrev main_v95 : Ref sig .tc := ⟨.hbm, 130, rfl⟩
abbrev main_cst_19 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  shapeCasts_S1000000x1_S1x1000000x1x1 : S1000000x1.ShapeCasts S1x1000000x1x1
  bcast_S1x1000000x1x1_S2x1000000x1x1_0_1_2_3 : S1x1000000x1x1.BroadcastsInDim S2x1000000x1x1 (![0, 1, 2, 3] : Fin 4 → Fin S2x1000000x1x1.rank)
  shapeCasts_S2x1000000x1x1_S2000000x1 : S2x1000000x1x1.ShapeCasts S2000000x1
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S1x64 : S_.BroadcastsInDim S1x64 (![] : Fin 0 → Fin S1x64.rank)
  bcast_S1_S1x1_1 : S1.BroadcastsInDim S1x1 (![1] : Fin 1 → Fin S1x1.rank)
  scatter_S100000_S1100000x1_S1100000_n_0_0_1_wf : ScatterDims.WF S100000 S1100000x1 S1100000 [] [0] [0] 1
  dot_S100000x64_S64x64_S100000x64_1_0_0_1_n_n_wf : DotDims.WF S100000x64 S64x64 S100000x64 [1] [0] [0] [1] [] []
  gather_S100000_S1100000x1_S1100000_n_0_n_n_0_1_1_wf : GatherDims.WF S100000 S1100000x1 S1100000 [] [0] [] [0] [] 1 ![1]
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S1x64_S64x1_S1x1_1_0_0_1_n_n_wf : DotDims.WF S1x64 S64x1 S1x1 [1] [0] [0] [1] [] []

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

class Facts : Prop extends Facts₀ where

variable [Facts]
-- ==== Proof.Kernel.R0.lean ====
/- Region 0 of @main, the first matrix product: each grid point multiplies one block of 10000 rows of the node
   features by the whole 64 x 64 weight matrix and stores the product as that point's block of the result.
   Stated at a parameter `V`, the buffer contents when the region is entered: what each window's staging buffer
   holds before and after the body at every point, the body's triple, and the pipeline's proof data. -/
import proofs.«129383_j28845000360148_1_alg».proof.Proof.Gen.Kernel.Launch
import proofs.«129383_j28845000360148_1_alg».proof.Proof.Gen.Kernel.Skeleton
import proofs.«129383_j28845000360148_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block's staging buffer holds the point's block whether or not a fetch happened there. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight matrix's staging buffer, fetched once, holds the whole matrix at every point. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The one rectangle the body stores through: the whole 10000 x 64 block. -/
abbrev rOut : Rect S10000x64 := Rect.unit (s := S10000x64) ![0, 0] S10000x64.size inb_S10000x64_S10000x64_0_0
abbrev rW : Rect S64x64 := Rect.unit (s := S64x64) ![0, 0] S64x64.size inb_S64x64_S64x64_0_0

/-- What the body leaves in the result's staging buffer: the product of the row block and the weights. -/
def outBlk (x0 : Vec F S10000x64 .f32) (x1 : Vec F S64x64 .f32) : Vec F S10000x64 .f32 :=
  View.canon [⟨rOut, k0_pay1 (View.ld x0 rOut) (View.ld x1 rW)⟩]

theorem cover_out (p0 : Vec F S10000x64 .f32) (y : S10000x64.Idx) :
    ∃ pc ∈ ([⟨rOut, p0⟩] : List (View.Piece (Elt F) S10000x64 .f32)), y ∈ pc.1.set :=
  View.cover_of_tiled [⟨rOut, p0⟩] S10000x64.size (by rfl) y

set_option maxHeartbeats 1000000 in
/-- The body on whole staging buffers: the two inputs are read and handed back, the result's buffer ends at `outBlk`. -/
theorem sound_kernel (c : Dev nD) (E : Set ℕ) (i : grid0.Coords) (arg1 : Memref sig .tc .vmem S10000x64 .f32) (harg1 : arg1.IsWhole)
    (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outBlk x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-- The pipeline's proof data: arrays as the region finds them; after the body each input's buffer at its block and the
    result's at the product of the two; the class invariant; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outBlk (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = outBlk (iblk V c 0 t) (iblk V c 1 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.R0

end
-- ==== Proof.Kernel.R1.lean ====
/- Region 1 of @main, the second layer's product: each grid point adds the bias row to one block of 10000 rows of the
   first layer's aggregate, clamps at zero, multiplies by the whole 64 x 64 weight matrix and stores the product as that
   point's block of the result. Stated at a parameter `V`, the buffer contents when the region is entered. -/
import proofs.«129383_j28845000360148_1_alg».proof.Proof.Gen.Kernel.Launch
import proofs.«129383_j28845000360148_1_alg».proof.Proof.Gen.Kernel.Skeleton
import proofs.«129383_j28845000360148_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds the point's block whether or not a fetch happened there (the bias row and the
    weights are fetched once: their block index never moves). -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The whole-buffer rectangles the body loads and stores through. -/
abbrev rOut : Rect S10000x64 := Rect.unit (s := S10000x64) ![0, 0] S10000x64.size inb_S10000x64_S10000x64_0_0
abbrev rB : Rect S1x64 := Rect.unit (s := S1x64) ![0, 0] S1x64.size inb_S1x64_S1x64_0_0
abbrev rW : Rect S64x64 := Rect.unit (s := S64x64) ![0, 0] S64x64.size inb_S64x64_S64x64_0_0

/-- What the body leaves in the result's staging buffer: the product of the clamped, biased row block and the weights. -/
def outBlk (x0 : Vec F S10000x64 .f32) (x1 : Vec F S1x64 .f32) (x2 : Vec F S64x64 .f32) : Vec F S10000x64 .f32 :=
  View.canon [⟨rOut, k1_pay1 (View.ld x0 rOut) (View.ld x1 rB) (View.ld x2 rW)⟩]

theorem cover_out (p0 : Vec F S10000x64 .f32) (y : S10000x64.Idx) :
    ∃ pc ∈ ([⟨rOut, p0⟩] : List (View.Piece (Elt F) S10000x64 .f32)), y ∈ pc.1.set :=
  View.cover_of_tiled [⟨rOut, p0⟩] S10000x64.size (by rfl) y

set_option maxHeartbeats 1000000 in
/-- The body on whole staging buffers: the three inputs are read and handed back, the result's buffer ends at `outBlk`. -/
theorem sound_kernel (c : Dev nD) (E : Set ℕ) (i : grid1.Coords) (arg1 : Memref sig .tc .vmem S10000x64 .f32) (harg1 : arg1.IsWhole)
    (arg2 : Memref sig .tc .vmem S1x64 .f32) (harg2 : arg2.IsWhole) (arg3 : Memref sig .tc .vmem S64x64 .f32) (harg3 : arg3.IsWhole)
    (arg4 : Memref sig .tc .vmem S10000x64 .f32) (harg4 : arg4.IsWhole)
    (x0 : Vec F S10000x64 .f32) (x1 : Vec F S1x64 .f32) (x2 : Vec F S64x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlk x0 x1 x2)) -∗ K ⟨⟩))
      ⊢ wp frame (wpE (defs₀ (F := F)) Variants.none c none) E (cc1__act_matmul_kernel i arg1 harg1 arg2 harg2 arg3 harg3 arg4 harg4) K := by
  simp only [cc1__act_matmul_kernel_eq_skeleton]; unfold cc1__act_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-- The pipeline's proof data: arrays as the region finds them; after the body each input's buffer at its block and the
    result's at `outBlk` of the three; the class invariant; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outBlk (iblk V c 0 t) (iblk V c 1 t) (iblk V c 2 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = outBlk (iblk V c 0 t) (iblk V c 1 t) (iblk V c 2 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.R1

end
-- ==== Proof.Kernel.R2.lean ====
import proofs.«129383_j28845000360148_1_alg».proof.Proof.Gen.Kernel.Launch
import proofs.«129383_j28845000360148_1_alg».proof.Proof.Gen.Kernel.Skeleton
import proofs.«129383_j28845000360148_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Pipeline.Value
import Idealize.ShloMosaic.Lib.Ring
import Idealize.ShloMosaic.Lib.Tactic

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-buffer rectangles the body loads and stores through. -/
abbrev rX : Rect S10000x64 := Rect.unit (s := S10000x64) ![0, 0] S10000x64.size inb_S10000x64_S10000x64_0_0
abbrev rB : Rect S1x64 := Rect.unit (s := S1x64) ![0, 0] S1x64.size inb_S1x64_S1x64_0_0
abbrev rFw : Rect S64x1 := Rect.unit (s := S64x1) ![0, 0] S64x1.size inb_S64x1_S64x1_0_0
abbrev rO : Rect S1x1 := Rect.unit (s := S1x1) ![0, 0] S1x1.size inb_S1x1_S1x1_0_0

/-- The running column sums' buffer, a scratch of the kernel's own that no window stages. -/
abbrev scM : Memref sig .tc .vmem S1x64 .f32 := Memref.whole cc2_scratch0

/-- The first grid point's test (the point's coordinate is 0) and the last's (it is 9), as the body computes them. -/
abbrev condFirst (i : grid2.Coords) : Prop :=
  (Scalar.cmpi .ne (Scalar.extui (Scalar.cmpi .eq (BitVec.ofNat 32 (i 0).val) 0#32)) 0#32) = 1#1
abbrev condLast (i : grid2.Coords) : Prop := k2_cond2 i = 1#1
theorem hcondFirst : ∀ t : Fin cfg2.N, condFirst (grid2.coords t) ↔ t.val = 0 :=
  (by decide +kernel : ∀ t : Fin grid2.N, condFirst (grid2.coords t) ↔ t.val = 0)
theorem hcondLast : ∀ t : Fin cfg2.N, condLast (grid2.coords t) ↔ t.val = 9 :=
  (by decide +kernel : ∀ t : Fin grid2.N, condLast (grid2.coords t) ↔ t.val = 9)

/-- The accumulator as the first point resets it: all zeros. -/
def accZero : Vec F S1x64 .f32 := k2_pay1 (F := F)

/-- One point's step: the column sums of the clamped, biased row block added to the accumulator. -/
def accStep (x : Vec F S10000x64 .f32) (b : Vec F S1x64 .f32) (a : Vec F S1x64 .f32) : Vec F S1x64 .f32 :=
  k2_pay2 x b a

/-- The last point's result: the accumulator scaled to a mean, times the 64 x 1 weights, plus the bias. -/
def outFin (a : Vec F S1x64 .f32) (fw : Vec F S64x1 .f32) (fb : Vec F S1x1 .f32) : Vec F S1x1 .f32 :=
  k2_pay3 a fw fb

theorem cover_B (p0 : Vec F S1x64 .f32) (y : S1x64.Idx) :
    ∃ pc ∈ ([⟨rB, p0⟩] : List (View.Piece (Elt F) S1x64 .f32)), y ∈ pc.1.set :=
  View.cover_of_tiled [⟨rB, p0⟩] S1x64.size (by rfl) y
theorem cover_O (p0 : Vec F S1x1 .f32) (y : S1x1.Idx) :
    ∃ pc ∈ ([⟨rO, p0⟩] : List (View.Piece (Elt F) S1x1 .f32)), y ∈ pc.1.set :=
  View.cover_of_tiled [⟨rO, p0⟩] S1x1.size (by rfl) y

theorem hz2 : (![0, 0] : Fin 2 → Nat) = fun _ => 0 := funext fun a => by fin_cases a <;> rfl

/-- Two whole-buffer stores in a row cover the buffer (the later one alone does). -/
theorem cover_B2 (p0 p1 : Vec F S1x64 .f32) (y : S1x64.Idx) :
    ∃ pc ∈ ([⟨rB, p0⟩, ⟨rB, p1⟩] : List (View.Piece (Elt F) S1x64 .f32)), y ∈ pc.1.set := by
  obtain ⟨pc, hpc, hy⟩ := cover_B p0 y
  rw [List.mem_singleton] at hpc; subst hpc
  exact ⟨_, List.mem_cons.mpr (Or.inl rfl), hy⟩

/-! ## The body's triple, one per control case -/

set_option maxHeartbeats 2000000 in
/-- THE FIRST POINT: the accumulator is reset to zeros and this point's column sums are added. The result window's
    buffer is not touched. -/
theorem sound_first (c : Dev nD) (E : Set ℕ) (i : grid2.Coords) (hF : condFirst i) (hL : ¬ condLast i)
    (arg1 : Memref sig .tc .vmem S10000x64 .f32) (harg1 : arg1.IsWhole) (arg2 : Memref sig .tc .vmem S1x64 .f32) (harg2 : arg2.IsWhole)
    (arg3 : Memref sig .tc .vmem S64x1 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x64 .f32) (harg6 : arg6.IsWhole)
    (x0 : Vec F S10000x64 .f32) (x1 : Vec F S1x64 .f32) (x2 : Vec F S64x1 .f32) (x3 : Vec F S1x1 .f32) (xo : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xo ∗ (∃ d, owns (c : Thread nD τ) arg6 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xo ∗ owns (c : Thread nD τ) arg6 fullShare (accStep x0 x1 accZero)) -∗ K ⟨⟩))
      ⊢ wp frame (wpE (defs₀ (F := F)) Variants.none c none) E (cc2__act_pool_kernel i arg1 harg1 arg2 harg2 arg3 harg3 arg4 harg4 arg5 harg5 arg6 harg6) K := by
  simp only [cc2__act_pool_kernel_eq_skeleton]; unfold cc2__act_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_words
  rw [View.read_writes_eq_canon _ _ _ (cover_B2 _ _), View.canon_cons_unit_zero hz2]
  simp only [View.readAt_eq_ld, View.readCov_unit_zero (S := S1x64) _ hz2, View.ld_unit_zero (S := S10000x64) hz2, View.ld_unit_zero (S := S1x64) hz2]
  try rfl

set_option maxHeartbeats 2000000 in
/-- A MIDDLE POINT: this point's column sums are added to the accumulator as the point before left it. -/
theorem sound_mid (c : Dev nD) (E : Set ℕ) (i : grid2.Coords) (hF : ¬ condFirst i) (hL : ¬ condLast i)
    (arg1 : Memref sig .tc .vmem S10000x64 .f32) (harg1 : arg1.IsWhole) (arg2 : Memref sig .tc .vmem S1x64 .f32) (harg2 : arg2.IsWhole)
    (arg3 : Memref sig .tc .vmem S64x1 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x64 .f32) (harg6 : arg6.IsWhole)
    (x0 : Vec F S10000x64 .f32) (x1 : Vec F S1x64 .f32) (x2 : Vec F S64x1 .f32) (x3 : Vec F S1x1 .f32) (xo : Vec F S1x1 .f32) (a : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xo ∗ owns (c : Thread nD τ) arg6 fullShare a
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xo ∗ owns (c : Thread nD τ) arg6 fullShare (accStep x0 x1 a)) -∗ K ⟨⟩))
      ⊢ wp frame (wpE (defs₀ (F := F)) Variants.none c none) E (cc2__act_pool_kernel i arg1 harg1 arg2 harg2 arg3 harg3 arg4 harg4 arg5 harg5 arg6 harg6) K := by
  simp only [cc2__act_pool_kernel_eq_skeleton]; unfold cc2__act_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_words
  rw [View.read_writes_eq_canon _ _ _ (cover_B _), View.canon_unit_zero hz2]
  simp only [View.readAt_eq_ld, View.ld_unit_zero (S := S10000x64) hz2, View.ld_unit_zero (S := S1x64) hz2]
  try rfl

set_option maxHeartbeats 2000000 in
/-- THE LAST POINT: the column sums are added as before, then the accumulator is scaled to a mean, multiplied by the
    64 x 1 weights, the bias added, and the 1 x 1 result stored. -/
theorem sound_last (c : Dev nD) (E : Set ℕ) (i : grid2.Coords) (hF : ¬ condFirst i) (hL : condLast i)
    (arg1 : Memref sig .tc .vmem S10000x64 .f32) (harg1 : arg1.IsWhole) (arg2 : Memref sig .tc .vmem S1x64 .f32) (harg2 : arg2.IsWhole)
    (arg3 : Memref sig .tc .vmem S64x1 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x64 .f32) (harg6 : arg6.IsWhole)
    (x0 : Vec F S10000x64 .f32) (x1 : Vec F S1x64 .f32) (x2 : Vec F S64x1 .f32) (x3 : Vec F S1x1 .f32) (a : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare a
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (outFin (accStep x0 x1 a) x2 x3) ∗ owns (c : Thread nD τ) arg6 fullShare (accStep x0 x1 a)) -∗ K ⟨⟩))
      ⊢ wp frame (wpE (defs₀ (F := F)) Variants.none c none) E (cc2__act_pool_kernel i arg1 harg1 arg2 harg2 arg3 harg3 arg4 harg4 arg5 harg5 arg6 harg6) K := by
  simp only [cc2__act_pool_kernel_eq_skeleton]; unfold cc2__act_pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    rw [View.read_writes_eq_canon _ _ _ (cover_O _), View.canon_unit_zero hz2]
    simp only [View.readAt_eq_ld, View.readCov_unit_zero (S := S1x64) _ hz2, View.ld_unit_zero (S := S10000x64) hz2, View.ld_unit_zero (S := S1x64) hz2,
      View.ld_unit_zero (S := S64x1) hz2, View.ld_unit_zero (S := S1x1) hz2]
    try rfl
  iexists _; isplitr
  swap; · iexact H5
  ipureintro
  sl_unfold_words
  rw [View.read_writes_eq_canon _ _ _ (cover_B _), View.canon_unit_zero hz2]
  simp only [View.readAt_eq_ld, View.ld_unit_zero (S := S10000x64) hz2, View.ld_unit_zero (S := S1x64) hz2]
  try rfl

/-! ## The accumulator point by point, and the region's invariant -/

/-- Each input's staging buffer holds the point's block whether or not a fetch happened there (all but the row block
    are fetched once: their block index never moves). -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The accumulator after the body at position `n`: the first point resets it and adds its column sums, every later
    point adds its own to what the point before left. -/
def acc (c : Dev nD) : (n : ℕ) → n < cfg2.N → Vec F S1x64 .f32
  | 0, hn => accStep (iblk V c 0 ⟨0, hn⟩) (iblk V c 1 ⟨0, hn⟩) accZero
  | n + 1, hn => accStep (iblk V c 0 ⟨n + 1, hn⟩) (iblk V c 1 ⟨n + 1, hn⟩) (acc c n (Nat.lt_of_succ_lt hn))

theorem acc_first (c : Dev nD) (t : Fin cfg2.N) (h : t.val = 0) :
    acc V c t.val t.isLt = accStep (iblk V c 0 t) (iblk V c 1 t) accZero := by
  obtain ⟨n, hn⟩ := t
  cases n with
  | zero => rfl
  | succ n => exact absurd h (Nat.succ_ne_zero n)

theorem acc_later (c : Dev nD) (t : Fin cfg2.N) (h : t.val ≠ 0) :
    acc V c t.val t.isLt = accStep (iblk V c 0 t) (iblk V c 1 t) (acc V c (t.val - 1) (Nat.lt_of_le_of_lt (Nat.sub_le _ _) t.isLt)) := by
  obtain ⟨n, hn⟩ := t
  cases n with
  | zero => exact absurd rfl h
  | succ n => rfl

/-- The scoped buffers that are neither a staging buffer of this region nor its accumulator, each at some contents:
    the other regions' staging buffers, which this region never touches. -/
abbrev restBut (c : Dev nD) : sProp 𝕄 :=
  Pipeline.scopedRestBut (Ix := Unit) (Name := ℕ) (U := UR sig nD τ) (Lvl := ℕ) (Val := Elt F) spec2 c [cc2_scratch0]

/-- THE INVARIANT before position `n`: before the first point every scoped buffer the region does not stage is at some
    contents; afterwards the accumulator is at what the point before left in it. -/
def Phi (c : Dev nD) : (n : ℕ) → n ≤ cfg2.N → sProp 𝕄
  | 0, _ => Pipeline.ΦA spec2 c
  | n + 1, hn => iprop(owns (c : Thread nD τ) scM fullShare (acc V c n hn) ∗ restBut c ∗ (∃ r, prngReg c r))

/-- The invariant before the first point, with the accumulator's buffer split out of the scoped rest. -/
theorem PhiA_eq (c : Dev nD) :
    (Pipeline.ΦA spec2 c : sProp 𝕄) = iprop(((∃ d, owns (c : Thread nD τ) scM fullShare d) ∗ restBut c) ∗ (∃ r, prngReg c r)) := by
  unfold Pipeline.ΦA restBut
  rw [Pipeline.scopedRest_split_of_list spec2 c [cc2_scratch0] (by decide) (by decide)]
  simp only [bigSepL_singleton, scM, owns_whole]
  try rfl

theorem Phi_zero (c : Dev nD) (n : ℕ) (h : n ≤ cfg2.N) (hz : n = 0) : Phi V c n h = Pipeline.ΦA spec2 c := by
  subst hz; rfl
theorem Phi_succ (c : Dev nD) (n : ℕ) (hn : n < cfg2.N) :
    Phi V c (n + 1) hn = iprop(owns (c : Thread nD τ) scM fullShare (acc V c n hn) ∗ restBut c ∗ (∃ r, prngReg c r)) := rfl
theorem Phi_pos (c : Dev nD) (n : ℕ) (h : n ≤ cfg2.N) (hz : n ≠ 0) :
    Phi V c n h = iprop(owns (c : Thread nD τ) scM fullShare (acc V c (n - 1) (by omega)) ∗ restBut c ∗ (∃ r, prngReg c r)) := by
  cases n with
  | zero => exact absurd rfl hz
  | succ n => rfl

/-! ## The pipeline's proof data -/

/-- Arrays as the region finds them; after the body each input's buffer at its block and the result's at the final
    expression of the accumulator (consulted at the last point only: elsewhere the window is idle and not written
    back); the invariant above; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => outFin (acc V c t.val t.isLt) (iblk V c 2 t) (iblk V c 3 t)
  Φ t := Phi V c t.val (Nat.le_of_lt_succ t.isLt)
  q _ := fullShare
  owed _ := 0

theorem A_eq (c : Dev nD) (w : Fin cfg2.W) : (dat V c).A w = V c (Pipeline.arrRef spec2 w) := by
  dsimp only [dat]

theorem Phi_castSucc (c : Dev nD) (t : Fin cfg2.N) : (dat V c).Φ t.castSucc = Phi V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) :
    (dat V c).after 4 t = outFin (acc V c t.val t.isLt) (iblk V c 2 t) (iblk V c 3 t) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d

/-! ## Where the result's window is idle -/

theorem live_0 : ∀ t : Fin cfg2.N, cfg2.idle 0 (grid2.coords t) = false := by decide +kernel
theorem live_1 : ∀ t : Fin cfg2.N, cfg2.idle 1 (grid2.coords t) = false := by decide +kernel
theorem live_2 : ∀ t : Fin cfg2.N, cfg2.idle 2 (grid2.coords t) = false := by decide +kernel
theorem live_3 : ∀ t : Fin cfg2.N, cfg2.idle 3 (grid2.coords t) = false := by decide +kernel
/-- The result's window is idle at every point but the last, and is not written back there; at the last it is live. -/
theorem idle_4 : ∀ t : Fin cfg2.N, t.val ≠ 9 → cfg2.idle 4 (grid2.coords t) = true := by decide +kernel
theorem noflush_4 : ∀ t : Fin cfg2.N, t.val ≠ 9 → (cfg2.win 4).flush t = false := by decide +kernel
theorem live_4 : ∀ t : Fin cfg2.N, t.val = 9 → cfg2.idle 4 (grid2.coords t) = false := by decide +kernel

theorem leaves_0 (c : Dev nD) (t : Fin cfg2.N) :
    (dat V c).leavesExact 0 t = owns (c : Thread nD τ) (st2_0 t) fullShare ((dat V c).after 0 t) := by
  unfold Dat.leavesExact; rw [live_0 t]
theorem leaves_1 (c : Dev nD) (t : Fin cfg2.N) :
    (dat V c).leavesExact 1 t = owns (c : Thread nD τ) (st2_1 t) fullShare ((dat V c).after 1 t) := by
  unfold Dat.leavesExact; rw [live_1 t]
theorem leaves_2 (c : Dev nD) (t : Fin cfg2.N) :
    (dat V c).leavesExact 2 t = owns (c : Thread nD τ) (st2_2 t) fullShare ((dat V c).after 2 t) := by
  unfold Dat.leavesExact; rw [live_2 t]
theorem leaves_3 (c : Dev nD) (t : Fin cfg2.N) :
    (dat V c).leavesExact 3 t = owns (c : Thread nD τ) (st2_3 t) fullShare ((dat V c).after 3 t) := by
  unfold Dat.leavesExact; rw [live_3 t]
theorem leaves_4_last (c : Dev nD) (t : Fin cfg2.N) (h : t.val = 9) :
    (dat V c).leavesExact 4 t = owns (c : Thread nD τ) (st2_4 t) fullShare ((dat V c).after 4 t) := by
  unfold Dat.leavesExact; rw [live_4 t h]

/-! ## The body obligation -/

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d)))

def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t)

set_option maxHeartbeats 2000000 in
/-- The body at any point, by the point's case: the inputs' buffers hold their blocks; the invariant hands over the
    accumulator (at anything at the first point, at what the point before left afterwards) and takes it back at this
    point's value; the result's buffer is handed back as found except at the last point, where it is stored. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3]
  rw [show (dat V c).owesAt () t.succ = (dat V c).owesAt () t.castSucc from rfl,
    show (dat V c).Φ t.succ = Phi V c (t.val + 1) t.isLt from rfl, Phi_succ,
    leaves_0, leaves_1, leaves_2, leaves_3, after_0, after_1, after_2, after_3, Phi_castSucc V c t]
  have hN : t.val < 10 := lt_of_lt_of_eq t.isLt (show cfg2.N = 10 from N_2)
  by_cases h0 : t.val = 0
  · have hF : condFirst (grid2.coords t) := (hcondFirst t).mpr h0
    have hL : ¬ condLast (grid2.coords t) := fun h => by have := (hcondLast t).mp h; omega
    rw [Dat.leavesExact_idle (dat V c) 4 t (idle_4 t (by omega)) (noflush_4 t (by omega)),
      Phi_zero V c _ _ h0, PhiA_eq, acc_first V c t h0]
    iintro ⟨⟨⟨HS, Hrest⟩, Hg⟩, Ho, ⟨%d0, H0⟩, ⟨%d1, H1⟩, ⟨%d2, H2⟩, ⟨%d3, H3⟩, ⟨%d4, H4⟩⟩
    iapply (sound_first c Set.univ (grid2.coords t) hF hL _ _ _ _ _ _ _ _ _ _ _ _ (iblk V c 0 t) (iblk V c 1 t) (iblk V c 2 t) (iblk V c 3 t) _ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hrest Hg]
    · isplitl [HS]; · iexact HS
      isplitl [Hrest]; · iexact Hrest
      iexact Hg
    isplitl [Ho]; · iexact Ho
    isplitl [H0]; · iexact H0
    isplitl [H1]; · iexact H1
    isplitl [H2]; · iexact H2
    isplitl [H3]; · iexact H3
    iexists _; iexact H4
  · have hF : ¬ condFirst (grid2.coords t) := fun h => h0 ((hcondFirst t).mp h)
    rw [Phi_pos V c _ _ h0, acc_later V c t h0]
    by_cases h9 : t.val = 9
    · have hL : condLast (grid2.coords t) := (hcondLast t).mpr h9
      rw [leaves_4_last V c t h9, after_4, acc_later V c t h0]
      iintro ⟨⟨HS, Hrest, Hg⟩, Ho, ⟨%d0, H0⟩, ⟨%d1, H1⟩, ⟨%d2, H2⟩, ⟨%d3, H3⟩, ⟨%d4, H4⟩⟩
      iapply (sound_last c Set.univ (grid2.coords t) hF hL _ _ _ _ _ _ _ _ _ _ _ _ (iblk V c 0 t) (iblk V c 1 t) (iblk V c 2 t) (iblk V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      iexact H4
    · have hL : ¬ condLast (grid2.coords t) := fun h => h9 ((hcondLast t).mp h)
      rw [Dat.leavesExact_idle (dat V c) 4 t (idle_4 t h9) (noflush_4 t h9)]
      iintro ⟨⟨HS, Hrest, Hg⟩, Ho, ⟨%d0, H0⟩, ⟨%d1, H1⟩, ⟨%d2, H2⟩, ⟨%d3, H3⟩, ⟨%d4, H4⟩⟩
      iapply (sound_mid c Set.univ (grid2.coords t) hF hL _ _ _ _ _ _ _ _ _ _ _ _ (iblk V c 0 t) (iblk V c 1 t) (iblk V c 2 t) (iblk V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W2, bigSep_W2]
  exact sound_body V c t

/-- What the region is entered with is the invariant before the first point. -/
theorem hin (c : Dev nD) : Pipeline.ΦA spec2 c ⊢ (dat V c).Φ 0 := by
  rw [show (dat V c).Φ 0 = Phi V c 0 (Nat.zero_le _) from rfl, Phi_zero V c 0 _ rfl]
  try exact Idealize.SL.BI.Entails.refl _

/-- After the last point the invariant gives the scoped rest back: the accumulator's value is forgotten. -/
theorem hout (c : Dev nD) : (dat V c).Φ (Fin.last cfg2.N) ⊢ Pipeline.ΦA spec2 c := by
  rw [show (dat V c).Φ (Fin.last cfg2.N) = Phi V c (Fin.last cfg2.N).val (Nat.le_of_lt_succ (Fin.last cfg2.N).isLt) from rfl,
    Phi_pos V c _ _ (by rw [Fin.val_last]; have : cfg2.N = 10 := N_2; omega), PhiA_eq]
  iintro ⟨HS, Hrest, Hg⟩
  isplitl [HS Hrest]
  · isplitl [HS]; · iexists _; iexact HS
    iexact Hrest
  iexact Hg

end Cert.Kernel.R2

end
-- ==== Proof.Kernel.Run.lean ====
/- The whole run of @main: three kernel regions between stretches of host operations. The buffer contents at each of
   the seven boundaries are a fold from the launch memory (a host stretch applies its operations; a region leaves its
   result's array at what its grid points wrote back and every other buffer as it found it). Every weakly fair execution
   terminates with the result array at the last boundary's contents and every argument array as launched. -/
import proofs.«129383_j28845000360148_1_alg».proof.Proof.Gen.Kernel.Launch
import proofs.«129383_j28845000360148_1_alg».proof.Proof.Gen.Kernel.Skeleton
import proofs.«129383_j28845000360148_1_alg».proof.Proof.Gen.Kernel.Points
import proofs.«129383_j28845000360148_1_alg».proof.Proof.Gen.Kernel.Regions
import proofs.«129383_j28845000360148_1_alg».proof.Proof.Kernel.R0
import proofs.«129383_j28845000360148_1_alg».proof.Proof.Kernel.R1
import proofs.«129383_j28845000360148_1_alg».proof.Proof.Kernel.R2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline's write-backs leave, every other buffer as entered. -/
def W2 (c : Dev nD) : Valuation τ sig (Elt F) :=
  Pipeline.withArrays spec0 c (W1 m c) fun w => (R0.dat (V1 m) c).arrAt w cfg0.N
theorem W2_arr (c : Dev nD) (w : Fin cfg0.W) :
    W2 m c (Proc.devRef .tc (Pipeline.arrRef spec0 w)) = (R0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (R0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At region 1's exit: its arrays at what the pipeline's write-backs leave, every other buffer as entered. -/
def W4 (c : Dev nD) : Valuation τ sig (Elt F) :=
  Pipeline.withArrays spec1 c (W3 m c) fun w => (R1.dat (V3 m) c).arrAt w cfg1.N
theorem W4_arr (c : Dev nD) (w : Fin cfg1.W) :
    W4 m c (Proc.devRef .tc (Pipeline.arrRef spec1 w)) = (R1.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (R1.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third host stretch (region 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- At region 2's exit: its arrays at what the pipeline's write-backs leave, every other buffer as entered. -/
def W6 (c : Dev nD) : Valuation τ sig (Elt F) :=
  Pipeline.withArrays spec2 c (W5 m c) fun w => (R2.dat (V5 m) c).arrAt w cfg2.N
theorem W6_arr (c : Dev nD) (w : Fin cfg2.W) :
    W6 m c (Proc.devRef .tc (Pipeline.arrRef spec2 w)) = (R2.dat (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (R2.dat (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## What each item leaves unchanged -/

/-- Region 0 changes no buffer but its result's array: an input's array ends as entered, a buffer that is no
    window's array is not touched. -/
theorem W2_keep (c : Dev nD) (b : Ref sig .tc) (hb : b ≠ main_v29) :
    W2 m c (Proc.devRef .tc b) = W1 m c (Proc.devRef .tc b) := by
  by_cases h : ∀ w, Pipeline.arrRef spec0 w ≠ b
  · exact W2_of_ne m c b h
  · obtain ⟨w, hw⟩ := not_forall.mp h
    obtain rfl := not_not.mp hw
    match w with
    | ⟨0, _⟩ => exact (W2_arr m c 0).trans (((R0.dat (V1 m) c).arrAt_in 0 rfl _).trans (R0.A_eq (V1 m) c 0))
    | ⟨1, _⟩ => exact (W2_arr m c 1).trans (((R0.dat (V1 m) c).arrAt_in 1 rfl _).trans (R0.A_eq (V1 m) c 1))
    | ⟨2, _⟩ => exact absurd rfl hb

/-- Region 1 changes no buffer but its result's array: an input's array ends as entered, a buffer that is no
    window's array is not touched. -/
theorem W4_keep (c : Dev nD) (b : Ref sig .tc) (hb : b ≠ main_v44) :
    W4 m c (Proc.devRef .tc b) = W3 m c (Proc.devRef .tc b) := by
  by_cases h : ∀ w, Pipeline.arrRef spec1 w ≠ b
  · exact W4_of_ne m c b h
  · obtain ⟨w, hw⟩ := not_forall.mp h
    obtain rfl := not_not.mp hw
    match w with
    | ⟨0, _⟩ => exact (W4_arr m c 0).trans (((R1.dat (V3 m) c).arrAt_in 0 rfl _).trans (R1.A_eq (V3 m) c 0))
    | ⟨1, _⟩ => exact (W4_arr m c 1).trans (((R1.dat (V3 m) c).arrAt_in 1 rfl _).trans (R1.A_eq (V3 m) c 1))
    | ⟨2, _⟩ => exact (W4_arr m c 2).trans (((R1.dat (V3 m) c).arrAt_in 2 rfl _).trans (R1.A_eq (V3 m) c 2))
    | ⟨3, _⟩ => exact absurd rfl hb

/-- Region 2 changes no buffer but its result's array: an input's array ends as entered, a buffer that is no
    window's array is not touched. -/
theorem W6_keep (c : Dev nD) (b : Ref sig .tc) (hb : b ≠ main_v60) :
    W6 m c (Proc.devRef .tc b) = W5 m c (Proc.devRef .tc b) := by
  by_cases h : ∀ w, Pipeline.arrRef spec2 w ≠ b
  · exact W6_of_ne m c b h
  · obtain ⟨w, hw⟩ := not_forall.mp h
    obtain rfl := not_not.mp hw
    match w with
    | ⟨0, _⟩ => exact (W6_arr m c 0).trans (((R2.dat (V5 m) c).arrAt_in 0 rfl _).trans (R2.A_eq (V5 m) c 0))
    | ⟨1, _⟩ => exact (W6_arr m c 1).trans (((R2.dat (V5 m) c).arrAt_in 1 rfl _).trans (R2.A_eq (V5 m) c 1))
    | ⟨2, _⟩ => exact (W6_arr m c 2).trans (((R2.dat (V5 m) c).arrAt_in 2 rfl _).trans (R2.A_eq (V5 m) c 2))
    | ⟨3, _⟩ => exact (W6_arr m c 3).trans (((R2.dat (V5 m) c).arrAt_in 3 rfl _).trans (R2.A_eq (V5 m) c 3))
    | ⟨4, _⟩ => exact absurd rfl hb

/-- A buffer no host stretch writes and no region's result lands in reaches the end as launched. -/
theorem W6_launch (c : Dev nD) (b : Ref sig .tc) (h0 : b ∉ hostOps0_W) (h1 : b ∉ hostOps1_W) (h2 : b ∉ hostOps2_W)
    (n0 : b ≠ main_v29) (n1 : b ≠ main_v44) (n2 : b ≠ main_v60) :
    W6 m c (Proc.devRef .tc b) = m ((c : Thread nD τ).loc b) :=
  (W6_keep m c b n2).trans <| (StableHlo.after_of_writes_sub hostOps2 _ hostOps2_writes h2).trans <|
    (W4_keep m c b n1).trans <| (StableHlo.after_of_writes_sub hostOps1 _ hostOps1_writes h1).trans <|
    (W2_keep m c b n0).trans <| (StableHlo.after_of_writes_sub hostOps0 _ hostOps0_writes h0).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => R0.dat (V1 m) c
  | ⟨1, _⟩ => fun c => R1.dat (V3 m) c
  | ⟨2, _⟩ => fun c => R2.dat (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered with every unscoped buffer at the contents before it, left with them at the
    contents after it. Its arrays are split out of the unscoped buffers and put back at the exit contents; the generator
    register goes into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at the
    contents after it. Its arrays are split out of the unscoped buffers and put back at the exit contents; the generator
    register goes into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with them at the
    contents after it. Its arrays are split out of the unscoped buffers and put back at the exit contents; the generator
    register goes into the invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (R2.body_obligation (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R2.hin (V5 m) c)
    unfold Pipeline.ΦA
    iintro ⟨Hp, -, Hr⟩
    isplitl [Hr]; · iexact Hr
    iexact Hp
  hout c := by
    rw [Pipeline.ownSems0_none]
    refine (R2.hout (V5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]

set_option backward.isDefEq.respectTransparency.types false in
/-- THE RUN, at any float instance: from any memory with zero counters every weakly fair execution of @main terminates,
    nothing faulting; the result array ends at the last boundary's contents and every argument array as launched. -/
theorem run : θ_run defs (onTc (τ := τ) (main (F := F))) ⟨m, fun _ => 0, ρ⟩ (fun r => ∀ c : Dev nD,
      r.2.mem ((c.tc : Thread nD τ).loc main_v60) = W6 m c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c =>
      ⟨h c _ (mem_uc main_v60 (by decide)),
       (h c _ (mem_uc main_arg0 (by decide))).trans (W6_launch m c main_arg0 (by decide) (by decide) (by decide) (by decide) (by decide) (by decide)),
       (h c _ (mem_uc main_arg1 (by decide))).trans (W6_launch m c main_arg1 (by decide) (by decide) (by decide) (by decide) (by decide) (by decide)),
       (h c _ (mem_uc main_arg2 (by decide))).trans (W6_launch m c main_arg2 (by decide) (by decide) (by decide) (by decide) (by decide) (by decide)),
       (h c _ (mem_uc main_arg3 (by decide))).trans (W6_launch m c main_arg3 (by decide) (by decide) (by decide) (by decide) (by decide) (by decide)),
       (h c _ (mem_uc main_arg4 (by decide))).trans (W6_launch m c main_arg4 (by decide) (by decide) (by decide) (by decide) (by decide) (by decide)),
       (h c _ (mem_uc main_arg5 (by decide))).trans (W6_launch m c main_arg5 (by decide) (by decide) (by decide) (by decide) (by decide) (by decide)),
       (h c _ (mem_uc main_arg6 (by decide))).trans (W6_launch m c main_arg6 (by decide) (by decide) (by decide) (by decide) (by decide) (by decide)),
       (h c _ (mem_uc main_arg7 (by decide))).trans (W6_launch m c main_arg7 (by decide) (by decide) (by decide) (by decide) (by decide) (by decide)),
       (h c _ (mem_uc main_arg8 (by decide))).trans (W6_launch m c main_arg8 (by decide) (by decide) (by decide) (by decide) (by decide) (by decide)),
       (h c _ (mem_uc main_arg9 (by decide))).trans (W6_launch m c main_arg9 (by decide) (by decide) (by decide) (by decide) (by decide) (by decide))⟩)

end Cert.Kernel.Run

end
-- ==== Proof.KernelIdeal.R0.lean ====
/- Region 0 of @main, the first matrix product: each grid point multiplies one block of 10000 rows of the node
   features by the whole 64 x 64 weight matrix and stores the product as that point's block of the result.
   Stated at a parameter `V`, the buffer contents when the region is entered: what each window's staging buffer
   holds before and after the body at every point, the body's triple, and the pipeline's proof data. -/
import proofs.«129383_j28845000360148_1_alg».proof.Proof.Gen.KernelIdeal.Launch
import proofs.«129383_j28845000360148_1_alg».proof.Proof.Gen.KernelIdeal.Skeleton
import proofs.«129383_j28845000360148_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block's staging buffer holds the point's block whether or not a fetch happened there. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight matrix's staging buffer, fetched once, holds the whole matrix at every point. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The one rectangle the body stores through: the whole 10000 x 64 block. -/
abbrev rOut : Rect S10000x64 := Rect.unit (s := S10000x64) ![0, 0] S10000x64.size inb_S10000x64_S10000x64_0_0
abbrev rW : Rect S64x64 := Rect.unit (s := S64x64) ![0, 0] S64x64.size inb_S64x64_S64x64_0_0

/-- What the body leaves in the result's staging buffer: the product of the row block and the weights. -/
def outBlk (x0 : Vec F S10000x64 .f32) (x1 : Vec F S64x64 .f32) : Vec F S10000x64 .f32 :=
  View.canon [⟨rOut, k0_pay1 (View.ld x0 rOut) (View.ld x1 rW)⟩]

theorem cover_out (p0 : Vec F S10000x64 .f32) (y : S10000x64.Idx) :
    ∃ pc ∈ ([⟨rOut, p0⟩] : List (View.Piece (Elt F) S10000x64 .f32)), y ∈ pc.1.set :=
  View.cover_of_tiled [⟨rOut, p0⟩] S10000x64.size (by rfl) y

set_option maxHeartbeats 1000000 in
/-- The body on whole staging buffers: the two inputs are read and handed back, the result's buffer ends at `outBlk`. -/
theorem sound_kernel (c : Dev nD) (E : Set ℕ) (i : grid0.Coords) (arg1 : Memref sig .tc .vmem S10000x64 .f32) (harg1 : arg1.IsWhole)
    (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outBlk x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-- The pipeline's proof data: arrays as the region finds them; after the body each input's buffer at its block and the
    result's at the product of the two; the class invariant; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outBlk (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = outBlk (iblk V c 0 t) (iblk V c 1 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.R0

end
-- ==== Proof.KernelIdeal.R1.lean ====
/- Region 1 of @main, the second layer's product: each grid point adds the bias row to one block of 10000 rows of the
   first layer's aggregate, clamps at zero, multiplies by the whole 64 x 64 weight matrix and stores the product as that
   point's block of the result. Stated at a parameter `V`, the buffer contents when the region is entered. -/
import proofs.«129383_j28845000360148_1_alg».proof.Proof.Gen.KernelIdeal.Launch
import proofs.«129383_j28845000360148_1_alg».proof.Proof.Gen.KernelIdeal.Skeleton
import proofs.«129383_j28845000360148_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds the point's block whether or not a fetch happened there (the bias row and the
    weights are fetched once: their block index never moves). -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The whole-buffer rectangles the body loads and stores through. -/
abbrev rOut : Rect S10000x64 := Rect.unit (s := S10000x64) ![0, 0] S10000x64.size inb_S10000x64_S10000x64_0_0
abbrev rB : Rect S1x64 := Rect.unit (s := S1x64) ![0, 0] S1x64.size inb_S1x64_S1x64_0_0
abbrev rW : Rect S64x64 := Rect.unit (s := S64x64) ![0, 0] S64x64.size inb_S64x64_S64x64_0_0

/-- What the body leaves in the result's staging buffer: the product of the clamped, biased row block and the weights. -/
def outBlk (x0 : Vec F S10000x64 .f32) (x1 : Vec F S1x64 .f32) (x2 : Vec F S64x64 .f32) : Vec F S10000x64 .f32 :=
  View.canon [⟨rOut, k1_pay1 (View.ld x0 rOut) (View.ld x1 rB) (View.ld x2 rW)⟩]

theorem cover_out (p0 : Vec F S10000x64 .f32) (y : S10000x64.Idx) :
    ∃ pc ∈ ([⟨rOut, p0⟩] : List (View.Piece (Elt F) S10000x64 .f32)), y ∈ pc.1.set :=
  View.cover_of_tiled [⟨rOut, p0⟩] S10000x64.size (by rfl) y

set_option maxHeartbeats 1000000 in
/-- The body on whole staging buffers: the three inputs are read and handed back, the result's buffer ends at `outBlk`. -/
theorem sound_kernel (c : Dev nD) (E : Set ℕ) (i : grid1.Coords) (arg1 : Memref sig .tc .vmem S10000x64 .f32) (harg1 : arg1.IsWhole)
    (arg2 : Memref sig .tc .vmem S1x64 .f32) (harg2 : arg2.IsWhole) (arg3 : Memref sig .tc .vmem S64x64 .f32) (harg3 : arg3.IsWhole)
    (arg4 : Memref sig .tc .vmem S10000x64 .f32) (harg4 : arg4.IsWhole)
    (x0 : Vec F S10000x64 .f32) (x1 : Vec F S1x64 .f32) (x2 : Vec F S64x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlk x0 x1 x2)) -∗ K ⟨⟩))
      ⊢ wp frame (wpE (defs₀ (F := F)) Variants.none c none) E (cc1__act_matmul_kernel i arg1 harg1 arg2 harg2 arg3 harg3 arg4 harg4) K := by
  simp only [cc1__act_matmul_kernel_eq_skeleton]; unfold cc1__act_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-- The pipeline's proof data: arrays as the region finds them; after the body each input's buffer at its block and the
    result's at `outBlk` of the three; the class invariant; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outBlk (iblk V c 0 t) (iblk V c 1 t) (iblk V c 2 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = outBlk (iblk V c 0 t) (iblk V c 1 t) (iblk V c 2 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.R1

end
-- ==== Proof.KernelIdeal.R2.lean ====
import proofs.«129383_j28845000360148_1_alg».proof.Proof.Gen.KernelIdeal.Launch
import proofs.«129383_j28845000360148_1_alg».proof.Proof.Gen.KernelIdeal.Skeleton
import proofs.«129383_j28845000360148_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Pipeline.Value
import Idealize.ShloMosaic.Lib.Ring
import Idealize.ShloMosaic.Lib.Tactic

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-buffer rectangles the body loads and stores through. -/
abbrev rX : Rect S10000x64 := Rect.unit (s := S10000x64) ![0, 0] S10000x64.size inb_S10000x64_S10000x64_0_0
abbrev rB : Rect S1x64 := Rect.unit (s := S1x64) ![0, 0] S1x64.size inb_S1x64_S1x64_0_0
abbrev rFw : Rect S64x1 := Rect.unit (s := S64x1) ![0, 0] S64x1.size inb_S64x1_S64x1_0_0
abbrev rO : Rect S1x1 := Rect.unit (s := S1x1) ![0, 0] S1x1.size inb_S1x1_S1x1_0_0

/-- The running column sums' buffer, a scratch of the kernel's own that no window stages. -/
abbrev scM : Memref sig .tc .vmem S1x64 .f32 := Memref.whole cc2_scratch0

/-- The first grid point's test (the point's coordinate is 0) and the last's (it is 9), as the body computes them. -/
abbrev condFirst (i : grid2.Coords) : Prop :=
  (Scalar.cmpi .ne (Scalar.extui (Scalar.cmpi .eq (BitVec.ofNat 32 (i 0).val) 0#32)) 0#32) = 1#1
abbrev condLast (i : grid2.Coords) : Prop := k2_cond2 i = 1#1
theorem hcondFirst : ∀ t : Fin cfg2.N, condFirst (grid2.coords t) ↔ t.val = 0 :=
  (by decide +kernel : ∀ t : Fin grid2.N, condFirst (grid2.coords t) ↔ t.val = 0)
theorem hcondLast : ∀ t : Fin cfg2.N, condLast (grid2.coords t) ↔ t.val = 9 :=
  (by decide +kernel : ∀ t : Fin grid2.N, condLast (grid2.coords t) ↔ t.val = 9)

/-- The accumulator as the first point resets it: all zeros. -/
def accZero : Vec F S1x64 .f32 := k2_pay1 (F := F)

/-- One point's step: the column sums of the clamped, biased row block added to the accumulator. -/
def accStep (x : Vec F S10000x64 .f32) (b : Vec F S1x64 .f32) (a : Vec F S1x64 .f32) : Vec F S1x64 .f32 :=
  k2_pay2 x b a

/-- The last point's result: the accumulator scaled to a mean, times the 64 x 1 weights, plus the bias. -/
def outFin (a : Vec F S1x64 .f32) (fw : Vec F S64x1 .f32) (fb : Vec F S1x1 .f32) : Vec F S1x1 .f32 :=
  k2_pay3 a fw fb

theorem cover_B (p0 : Vec F S1x64 .f32) (y : S1x64.Idx) :
    ∃ pc ∈ ([⟨rB, p0⟩] : List (View.Piece (Elt F) S1x64 .f32)), y ∈ pc.1.set :=
  View.cover_of_tiled [⟨rB, p0⟩] S1x64.size (by rfl) y
theorem cover_O (p0 : Vec F S1x1 .f32) (y : S1x1.Idx) :
    ∃ pc ∈ ([⟨rO, p0⟩] : List (View.Piece (Elt F) S1x1 .f32)), y ∈ pc.1.set :=
  View.cover_of_tiled [⟨rO, p0⟩] S1x1.size (by rfl) y

theorem hz2 : (![0, 0] : Fin 2 → Nat) = fun _ => 0 := funext fun a => by fin_cases a <;> rfl

/-- Two whole-buffer stores in a row cover the buffer (the later one alone does). -/
theorem cover_B2 (p0 p1 : Vec F S1x64 .f32) (y : S1x64.Idx) :
    ∃ pc ∈ ([⟨rB, p0⟩, ⟨rB, p1⟩] : List (View.Piece (Elt F) S1x64 .f32)), y ∈ pc.1.set := by
  obtain ⟨pc, hpc, hy⟩ := cover_B p0 y
  rw [List.mem_singleton] at hpc; subst hpc
  exact ⟨_, List.mem_cons.mpr (Or.inl rfl), hy⟩

/-! ## The body's triple, one per control case -/

set_option maxHeartbeats 2000000 in
/-- THE FIRST POINT: the accumulator is reset to zeros and this point's column sums are added. The result window's
    buffer is not touched. -/
theorem sound_first (c : Dev nD) (E : Set ℕ) (i : grid2.Coords) (hF : condFirst i) (hL : ¬ condLast i)
    (arg1 : Memref sig .tc .vmem S10000x64 .f32) (harg1 : arg1.IsWhole) (arg2 : Memref sig .tc .vmem S1x64 .f32) (harg2 : arg2.IsWhole)
    (arg3 : Memref sig .tc .vmem S64x1 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x64 .f32) (harg6 : arg6.IsWhole)
    (x0 : Vec F S10000x64 .f32) (x1 : Vec F S1x64 .f32) (x2 : Vec F S64x1 .f32) (x3 : Vec F S1x1 .f32) (xo : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xo ∗ (∃ d, owns (c : Thread nD τ) arg6 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xo ∗ owns (c : Thread nD τ) arg6 fullShare (accStep x0 x1 accZero)) -∗ K ⟨⟩))
      ⊢ wp frame (wpE (defs₀ (F := F)) Variants.none c none) E (cc2__act_pool_kernel i arg1 harg1 arg2 harg2 arg3 harg3 arg4 harg4 arg5 harg5 arg6 harg6) K := by
  simp only [cc2__act_pool_kernel_eq_skeleton]; unfold cc2__act_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_words
  rw [View.read_writes_eq_canon _ _ _ (cover_B2 _ _), View.canon_cons_unit_zero hz2]
  simp only [View.readAt_eq_ld, View.readCov_unit_zero (S := S1x64) _ hz2, View.ld_unit_zero (S := S10000x64) hz2, View.ld_unit_zero (S := S1x64) hz2]
  try rfl

set_option maxHeartbeats 2000000 in
/-- A MIDDLE POINT: this point's column sums are added to the accumulator as the point before left it. -/
theorem sound_mid (c : Dev nD) (E : Set ℕ) (i : grid2.Coords) (hF : ¬ condFirst i) (hL : ¬ condLast i)
    (arg1 : Memref sig .tc .vmem S10000x64 .f32) (harg1 : arg1.IsWhole) (arg2 : Memref sig .tc .vmem S1x64 .f32) (harg2 : arg2.IsWhole)
    (arg3 : Memref sig .tc .vmem S64x1 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x64 .f32) (harg6 : arg6.IsWhole)
    (x0 : Vec F S10000x64 .f32) (x1 : Vec F S1x64 .f32) (x2 : Vec F S64x1 .f32) (x3 : Vec F S1x1 .f32) (xo : Vec F S1x1 .f32) (a : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xo ∗ owns (c : Thread nD τ) arg6 fullShare a
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xo ∗ owns (c : Thread nD τ) arg6 fullShare (accStep x0 x1 a)) -∗ K ⟨⟩))
      ⊢ wp frame (wpE (defs₀ (F := F)) Variants.none c none) E (cc2__act_pool_kernel i arg1 harg1 arg2 harg2 arg3 harg3 arg4 harg4 arg5 harg5 arg6 harg6) K := by
  simp only [cc2__act_pool_kernel_eq_skeleton]; unfold cc2__act_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_words
  rw [View.read_writes_eq_canon _ _ _ (cover_B _), View.canon_unit_zero hz2]
  simp only [View.readAt_eq_ld, View.ld_unit_zero (S := S10000x64) hz2, View.ld_unit_zero (S := S1x64) hz2]
  try rfl

set_option maxHeartbeats 2000000 in
/-- THE LAST POINT: the column sums are added as before, then the accumulator is scaled to a mean, multiplied by the
    64 x 1 weights, the bias added, and the 1 x 1 result stored. -/
theorem sound_last (c : Dev nD) (E : Set ℕ) (i : grid2.Coords) (hF : ¬ condFirst i) (hL : condLast i)
    (arg1 : Memref sig .tc .vmem S10000x64 .f32) (harg1 : arg1.IsWhole) (arg2 : Memref sig .tc .vmem S1x64 .f32) (harg2 : arg2.IsWhole)
    (arg3 : Memref sig .tc .vmem S64x1 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x64 .f32) (harg6 : arg6.IsWhole)
    (x0 : Vec F S10000x64 .f32) (x1 : Vec F S1x64 .f32) (x2 : Vec F S64x1 .f32) (x3 : Vec F S1x1 .f32) (a : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare a
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (outFin (accStep x0 x1 a) x2 x3) ∗ owns (c : Thread nD τ) arg6 fullShare (accStep x0 x1 a)) -∗ K ⟨⟩))
      ⊢ wp frame (wpE (defs₀ (F := F)) Variants.none c none) E (cc2__act_pool_kernel i arg1 harg1 arg2 harg2 arg3 harg3 arg4 harg4 arg5 harg5 arg6 harg6) K := by
  simp only [cc2__act_pool_kernel_eq_skeleton]; unfold cc2__act_pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    rw [View.read_writes_eq_canon _ _ _ (cover_O _), View.canon_unit_zero hz2]
    simp only [View.readAt_eq_ld, View.readCov_unit_zero (S := S1x64) _ hz2, View.ld_unit_zero (S := S10000x64) hz2, View.ld_unit_zero (S := S1x64) hz2,
      View.ld_unit_zero (S := S64x1) hz2, View.ld_unit_zero (S := S1x1) hz2]
    try rfl
  iexists _; isplitr
  swap; · iexact H5
  ipureintro
  sl_unfold_words
  rw [View.read_writes_eq_canon _ _ _ (cover_B _), View.canon_unit_zero hz2]
  simp only [View.readAt_eq_ld, View.ld_unit_zero (S := S10000x64) hz2, View.ld_unit_zero (S := S1x64) hz2]
  try rfl

/-! ## The accumulator point by point, and the region's invariant -/

/-- Each input's staging buffer holds the point's block whether or not a fetch happened there (all but the row block
    are fetched once: their block index never moves). -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The accumulator after the body at position `n`: the first point resets it and adds its column sums, every later
    point adds its own to what the point before left. -/
def acc (c : Dev nD) : (n : ℕ) → n < cfg2.N → Vec F S1x64 .f32
  | 0, hn => accStep (iblk V c 0 ⟨0, hn⟩) (iblk V c 1 ⟨0, hn⟩) accZero
  | n + 1, hn => accStep (iblk V c 0 ⟨n + 1, hn⟩) (iblk V c 1 ⟨n + 1, hn⟩) (acc c n (Nat.lt_of_succ_lt hn))

theorem acc_first (c : Dev nD) (t : Fin cfg2.N) (h : t.val = 0) :
    acc V c t.val t.isLt = accStep (iblk V c 0 t) (iblk V c 1 t) accZero := by
  obtain ⟨n, hn⟩ := t
  cases n with
  | zero => rfl
  | succ n => exact absurd h (Nat.succ_ne_zero n)

theorem acc_later (c : Dev nD) (t : Fin cfg2.N) (h : t.val ≠ 0) :
    acc V c t.val t.isLt = accStep (iblk V c 0 t) (iblk V c 1 t) (acc V c (t.val - 1) (Nat.lt_of_le_of_lt (Nat.sub_le _ _) t.isLt)) := by
  obtain ⟨n, hn⟩ := t
  cases n with
  | zero => exact absurd rfl h
  | succ n => rfl

/-- The scoped buffers that are neither a staging buffer of this region nor its accumulator, each at some contents:
    the other regions' staging buffers, which this region never touches. -/
abbrev restBut (c : Dev nD) : sProp 𝕄 :=
  Pipeline.scopedRestBut (Ix := Unit) (Name := ℕ) (U := UR sig nD τ) (Lvl := ℕ) (Val := Elt F) spec2 c [cc2_scratch0]

/-- THE INVARIANT before position `n`: before the first point every scoped buffer the region does not stage is at some
    contents; afterwards the accumulator is at what the point before left in it. -/
def Phi (c : Dev nD) : (n : ℕ) → n ≤ cfg2.N → sProp 𝕄
  | 0, _ => Pipeline.ΦA spec2 c
  | n + 1, hn => iprop(owns (c : Thread nD τ) scM fullShare (acc V c n hn) ∗ restBut c ∗ (∃ r, prngReg c r))

/-- The invariant before the first point, with the accumulator's buffer split out of the scoped rest. -/
theorem PhiA_eq (c : Dev nD) :
    (Pipeline.ΦA spec2 c : sProp 𝕄) = iprop(((∃ d, owns (c : Thread nD τ) scM fullShare d) ∗ restBut c) ∗ (∃ r, prngReg c r)) := by
  unfold Pipeline.ΦA restBut
  rw [Pipeline.scopedRest_split_of_list spec2 c [cc2_scratch0] (by decide) (by decide)]
  simp only [bigSepL_singleton, scM, owns_whole]
  try rfl

theorem Phi_zero (c : Dev nD) (n : ℕ) (h : n ≤ cfg2.N) (hz : n = 0) : Phi V c n h = Pipeline.ΦA spec2 c := by
  subst hz; rfl
theorem Phi_succ (c : Dev nD) (n : ℕ) (hn : n < cfg2.N) :
    Phi V c (n + 1) hn = iprop(owns (c : Thread nD τ) scM fullShare (acc V c n hn) ∗ restBut c ∗ (∃ r, prngReg c r)) := rfl
theorem Phi_pos (c : Dev nD) (n : ℕ) (h : n ≤ cfg2.N) (hz : n ≠ 0) :
    Phi V c n h = iprop(owns (c : Thread nD τ) scM fullShare (acc V c (n - 1) (by omega)) ∗ restBut c ∗ (∃ r, prngReg c r)) := by
  cases n with
  | zero => exact absurd rfl hz
  | succ n => rfl

/-! ## The pipeline's proof data -/

/-- Arrays as the region finds them; after the body each input's buffer at its block and the result's at the final
    expression of the accumulator (consulted at the last point only: elsewhere the window is idle and not written
    back); the invariant above; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => outFin (acc V c t.val t.isLt) (iblk V c 2 t) (iblk V c 3 t)
  Φ t := Phi V c t.val (Nat.le_of_lt_succ t.isLt)
  q _ := fullShare
  owed _ := 0

theorem A_eq (c : Dev nD) (w : Fin cfg2.W) : (dat V c).A w = V c (Pipeline.arrRef spec2 w) := by
  dsimp only [dat]

theorem Phi_castSucc (c : Dev nD) (t : Fin cfg2.N) : (dat V c).Φ t.castSucc = Phi V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) :
    (dat V c).after 4 t = outFin (acc V c t.val t.isLt) (iblk V c 2 t) (iblk V c 3 t) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d

/-! ## Where the result's window is idle -/

theorem live_0 : ∀ t : Fin cfg2.N, cfg2.idle 0 (grid2.coords t) = false := by decide +kernel
theorem live_1 : ∀ t : Fin cfg2.N, cfg2.idle 1 (grid2.coords t) = false := by decide +kernel
theorem live_2 : ∀ t : Fin cfg2.N, cfg2.idle 2 (grid2.coords t) = false := by decide +kernel
theorem live_3 : ∀ t : Fin cfg2.N, cfg2.idle 3 (grid2.coords t) = false := by decide +kernel
/-- The result's window is idle at every point but the last, and is not written back there; at the last it is live. -/
theorem idle_4 : ∀ t : Fin cfg2.N, t.val ≠ 9 → cfg2.idle 4 (grid2.coords t) = true := by decide +kernel
theorem noflush_4 : ∀ t : Fin cfg2.N, t.val ≠ 9 → (cfg2.win 4).flush t = false := by decide +kernel
theorem live_4 : ∀ t : Fin cfg2.N, t.val = 9 → cfg2.idle 4 (grid2.coords t) = false := by decide +kernel

theorem leaves_0 (c : Dev nD) (t : Fin cfg2.N) :
    (dat V c).leavesExact 0 t = owns (c : Thread nD τ) (st2_0 t) fullShare ((dat V c).after 0 t) := by
  unfold Dat.leavesExact; rw [live_0 t]
theorem leaves_1 (c : Dev nD) (t : Fin cfg2.N) :
    (dat V c).leavesExact 1 t = owns (c : Thread nD τ) (st2_1 t) fullShare ((dat V c).after 1 t) := by
  unfold Dat.leavesExact; rw [live_1 t]
theorem leaves_2 (c : Dev nD) (t : Fin cfg2.N) :
    (dat V c).leavesExact 2 t = owns (c : Thread nD τ) (st2_2 t) fullShare ((dat V c).after 2 t) := by
  unfold Dat.leavesExact; rw [live_2 t]
theorem leaves_3 (c : Dev nD) (t : Fin cfg2.N) :
    (dat V c).leavesExact 3 t = owns (c : Thread nD τ) (st2_3 t) fullShare ((dat V c).after 3 t) := by
  unfold Dat.leavesExact; rw [live_3 t]
theorem leaves_4_last (c : Dev nD) (t : Fin cfg2.N) (h : t.val = 9) :
    (dat V c).leavesExact 4 t = owns (c : Thread nD τ) (st2_4 t) fullShare ((dat V c).after 4 t) := by
  unfold Dat.leavesExact; rw [live_4 t h]

/-! ## The body obligation -/

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d)))

def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t)

set_option maxHeartbeats 2000000 in
/-- The body at any point, by the point's case: the inputs' buffers hold their blocks; the invariant hands over the
    accumulator (at anything at the first point, at what the point before left afterwards) and takes it back at this
    point's value; the result's buffer is handed back as found except at the last point, where it is stored. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3]
  rw [show (dat V c).owesAt () t.succ = (dat V c).owesAt () t.castSucc from rfl,
    show (dat V c).Φ t.succ = Phi V c (t.val + 1) t.isLt from rfl, Phi_succ,
    leaves_0, leaves_1, leaves_2, leaves_3, after_0, after_1, after_2, after_3, Phi_castSucc V c t]
  have hN : t.val < 10 := lt_of_lt_of_eq t.isLt (show cfg2.N = 10 from N_2)
  by_cases h0 : t.val = 0
  · have hF : condFirst (grid2.coords t) := (hcondFirst t).mpr h0
    have hL : ¬ condLast (grid2.coords t) := fun h => by have := (hcondLast t).mp h; omega
    rw [Dat.leavesExact_idle (dat V c) 4 t (idle_4 t (by omega)) (noflush_4 t (by omega)),
      Phi_zero V c _ _ h0, PhiA_eq, acc_first V c t h0]
    iintro ⟨⟨⟨HS, Hrest⟩, Hg⟩, Ho, ⟨%d0, H0⟩, ⟨%d1, H1⟩, ⟨%d2, H2⟩, ⟨%d3, H3⟩, ⟨%d4, H4⟩⟩
    iapply (sound_first c Set.univ (grid2.coords t) hF hL _ _ _ _ _ _ _ _ _ _ _ _ (iblk V c 0 t) (iblk V c 1 t) (iblk V c 2 t) (iblk V c 3 t) _ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hrest Hg]
    · isplitl [HS]; · iexact HS
      isplitl [Hrest]; · iexact Hrest
      iexact Hg
    isplitl [Ho]; · iexact Ho
    isplitl [H0]; · iexact H0
    isplitl [H1]; · iexact H1
    isplitl [H2]; · iexact H2
    isplitl [H3]; · iexact H3
    iexists _; iexact H4
  · have hF : ¬ condFirst (grid2.coords t) := fun h => h0 ((hcondFirst t).mp h)
    rw [Phi_pos V c _ _ h0, acc_later V c t h0]
    by_cases h9 : t.val = 9
    · have hL : condLast (grid2.coords t) := (hcondLast t).mpr h9
      rw [leaves_4_last V c t h9, after_4, acc_later V c t h0]
      iintro ⟨⟨HS, Hrest, Hg⟩, Ho, ⟨%d0, H0⟩, ⟨%d1, H1⟩, ⟨%d2, H2⟩, ⟨%d3, H3⟩, ⟨%d4, H4⟩⟩
      iapply (sound_last c Set.univ (grid2.coords t) hF hL _ _ _ _ _ _ _ _ _ _ _ _ (iblk V c 0 t) (iblk V c 1 t) (iblk V c 2 t) (iblk V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      iexact H4
    · have hL : ¬ condLast (grid2.coords t) := fun h => h9 ((hcondLast t).mp h)
      rw [Dat.leavesExact_idle (dat V c) 4 t (idle_4 t h9) (noflush_4 t h9)]
      iintro ⟨⟨HS, Hrest, Hg⟩, Ho, ⟨%d0, H0⟩, ⟨%d1, H1⟩, ⟨%d2, H2⟩, ⟨%d3, H3⟩, ⟨%d4, H4⟩⟩
      iapply (sound_mid c Set.univ (grid2.coords t) hF hL _ _ _ _ _ _ _ _ _ _ _ _ (iblk V c 0 t) (iblk V c 1 t) (iblk V c 2 t) (iblk V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W2, bigSep_W2]
  exact sound_body V c t

/-- What the region is entered with is the invariant before the first point. -/
theorem hin (c : Dev nD) : Pipeline.ΦA spec2 c ⊢ (dat V c).Φ 0 := by
  rw [show (dat V c).Φ 0 = Phi V c 0 (Nat.zero_le _) from rfl, Phi_zero V c 0 _ rfl]
  try exact Idealize.SL.BI.Entails.refl _

/-- After the last point the invariant gives the scoped rest back: the accumulator's value is forgotten. -/
theorem hout (c : Dev nD) : (dat V c).Φ (Fin.last cfg2.N) ⊢ Pipeline.ΦA spec2 c := by
  rw [show (dat V c).Φ (Fin.last cfg2.N) = Phi V c (Fin.last cfg2.N).val (Nat.le_of_lt_succ (Fin.last cfg2.N).isLt) from rfl,
    Phi_pos V c _ _ (by rw [Fin.val_last]; have : cfg2.N = 10 := N_2; omega), PhiA_eq]
  iintro ⟨HS, Hrest, Hg⟩
  isplitl [HS Hrest]
  · isplitl [HS]; · iexists _; iexact HS
    iexact Hrest
  iexact Hg

end Cert.KernelIdeal.R2

end
-- ==== Proof.KernelIdeal.Run.lean ====
/- The whole run of @main: three kernel regions between stretches of host operations. The buffer contents at each of
   the seven boundaries are a fold from the launch memory (a host stretch applies its operations; a region leaves its
   result's array at what its grid points wrote back and every other buffer as it found it). Every weakly fair execution
   terminates with the result array at the last boundary's contents and every argument array as launched. -/
import proofs.«129383_j28845000360148_1_alg».proof.Proof.Gen.KernelIdeal.Launch
import proofs.«129383_j28845000360148_1_alg».proof.Proof.Gen.KernelIdeal.Skeleton
import proofs.«129383_j28845000360148_1_alg».proof.Proof.Gen.KernelIdeal.Points
import proofs.«129383_j28845000360148_1_alg».proof.Proof.Gen.KernelIdeal.Regions
import proofs.«129383_j28845000360148_1_alg».proof.Proof.KernelIdeal.R0
import proofs.«129383_j28845000360148_1_alg».proof.Proof.KernelIdeal.R1
import proofs.«129383_j28845000360148_1_alg».proof.Proof.KernelIdeal.R2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline's write-backs leave, every other buffer as entered. -/
def W2 (c : Dev nD) : Valuation τ sig (Elt F) :=
  Pipeline.withArrays spec0 c (W1 m c) fun w => (R0.dat (V1 m) c).arrAt w cfg0.N
theorem W2_arr (c : Dev nD) (w : Fin cfg0.W) :
    W2 m c (Proc.devRef .tc (Pipeline.arrRef spec0 w)) = (R0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (R0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At region 1's exit: its arrays at what the pipeline's write-backs leave, every other buffer as entered. -/
def W4 (c : Dev nD) : Valuation τ sig (Elt F) :=
  Pipeline.withArrays spec1 c (W3 m c) fun w => (R1.dat (V3 m) c).arrAt w cfg1.N
theorem W4_arr (c : Dev nD) (w : Fin cfg1.W) :
    W4 m c (Proc.devRef .tc (Pipeline.arrRef spec1 w)) = (R1.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (R1.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third host stretch (region 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- At region 2's exit: its arrays at what the pipeline's write-backs leave, every other buffer as entered. -/
def W6 (c : Dev nD) : Valuation τ sig (Elt F) :=
  Pipeline.withArrays spec2 c (W5 m c) fun w => (R2.dat (V5 m) c).arrAt w cfg2.N
theorem W6_arr (c : Dev nD) (w : Fin cfg2.W) :
    W6 m c (Proc.devRef .tc (Pipeline.arrRef spec2 w)) = (R2.dat (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (R2.dat (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## What each item leaves unchanged -/

/-- Region 0 changes no buffer but its result's array: an input's array ends as entered, a buffer that is no
    window's array is not touched. -/
theorem W2_keep (c : Dev nD) (b : Ref sig .tc) (hb : b ≠ main_v29) :
    W2 m c (Proc.devRef .tc b) = W1 m c (Proc.devRef .tc b) := by
  by_cases h : ∀ w, Pipeline.arrRef spec0 w ≠ b
  · exact W2_of_ne m c b h
  · obtain ⟨w, hw⟩ := not_forall.mp h
    obtain rfl := not_not.mp hw
    match w with
    | ⟨0, _⟩ => exact (W2_arr m c 0).trans (((R0.dat (V1 m) c).arrAt_in 0 rfl _).trans (R0.A_eq (V1 m) c 0))
    | ⟨1, _⟩ => exact (W2_arr m c 1).trans (((R0.dat (V1 m) c).arrAt_in 1 rfl _).trans (R0.A_eq (V1 m) c 1))
    | ⟨2, _⟩ => exact absurd rfl hb

/-- Region 1 changes no buffer but its result's array: an input's array ends as entered, a buffer that is no
    window's array is not touched. -/
theorem W4_keep (c : Dev nD) (b : Ref sig .tc) (hb : b ≠ main_v44) :
    W4 m c (Proc.devRef .tc b) = W3 m c (Proc.devRef .tc b) := by
  by_cases h : ∀ w, Pipeline.arrRef spec1 w ≠ b
  · exact W4_of_ne m c b h
  · obtain ⟨w, hw⟩ := not_forall.mp h
    obtain rfl := not_not.mp hw
    match w with
    | ⟨0, _⟩ => exact (W4_arr m c 0).trans (((R1.dat (V3 m) c).arrAt_in 0 rfl _).trans (R1.A_eq (V3 m) c 0))
    | ⟨1, _⟩ => exact (W4_arr m c 1).trans (((R1.dat (V3 m) c).arrAt_in 1 rfl _).trans (R1.A_eq (V3 m) c 1))
    | ⟨2, _⟩ => exact (W4_arr m c 2).trans (((R1.dat (V3 m) c).arrAt_in 2 rfl _).trans (R1.A_eq (V3 m) c 2))
    | ⟨3, _⟩ => exact absurd rfl hb

/-- Region 2 changes no buffer but its result's array: an input's array ends as entered, a buffer that is no
    window's array is not touched. -/
theorem W6_keep (c : Dev nD) (b : Ref sig .tc) (hb : b ≠ main_v60) :
    W6 m c (Proc.devRef .tc b) = W5 m c (Proc.devRef .tc b) := by
  by_cases h : ∀ w, Pipeline.arrRef spec2 w ≠ b
  · exact W6_of_ne m c b h
  · obtain ⟨w, hw⟩ := not_forall.mp h
    obtain rfl := not_not.mp hw
    match w with
    | ⟨0, _⟩ => exact (W6_arr m c 0).trans (((R2.dat (V5 m) c).arrAt_in 0 rfl _).trans (R2.A_eq (V5 m) c 0))
    | ⟨1, _⟩ => exact (W6_arr m c 1).trans (((R2.dat (V5 m) c).arrAt_in 1 rfl _).trans (R2.A_eq (V5 m) c 1))
    | ⟨2, _⟩ => exact (W6_arr m c 2).trans (((R2.dat (V5 m) c).arrAt_in 2 rfl _).trans (R2.A_eq (V5 m) c 2))
    | ⟨3, _⟩ => exact (W6_arr m c 3).trans (((R2.dat (V5 m) c).arrAt_in 3 rfl _).trans (R2.A_eq (V5 m) c 3))
    | ⟨4, _⟩ => exact absurd rfl hb

/-- A buffer no host stretch writes and no region's result lands in reaches the end as launched. -/
theorem W6_launch (c : Dev nD) (b : Ref sig .tc) (h0 : b ∉ hostOps0_W) (h1 : b ∉ hostOps1_W) (h2 : b ∉ hostOps2_W)
    (n0 : b ≠ main_v29) (n1 : b ≠ main_v44) (n2 : b ≠ main_v60) :
    W6 m c (Proc.devRef .tc b) = m ((c : Thread nD τ).loc b) :=
  (W6_keep m c b n2).trans <| (StableHlo.after_of_writes_sub hostOps2 _ hostOps2_writes h2).trans <|
    (W4_keep m c b n1).trans <| (StableHlo.after_of_writes_sub hostOps1 _ hostOps1_writes h1).trans <|
    (W2_keep m c b n0).trans <| (StableHlo.after_of_writes_sub hostOps0 _ hostOps0_writes h0).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => R0.dat (V1 m) c
  | ⟨1, _⟩ => fun c => R1.dat (V3 m) c
  | ⟨2, _⟩ => fun c => R2.dat (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered with every unscoped buffer at the contents before it, left with them at the
    contents after it. Its arrays are split out of the unscoped buffers and put back at the exit contents; the generator
    register goes into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at the
    contents after it. Its arrays are split out of the unscoped buffers and put back at the exit contents; the generator
    register goes into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with them at the
    contents after it. Its arrays are split out of the unscoped buffers and put back at the exit contents; the generator
    register goes into the invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (R2.body_obligation (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R2.hin (V5 m) c)
    unfold Pipeline.ΦA
    iintro ⟨Hp, -, Hr⟩
    isplitl [Hr]; · iexact Hr
    iexact Hp
  hout c := by
    rw [Pipeline.ownSems0_none]
    refine (R2.hout (V5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]

set_option backward.isDefEq.respectTransparency.types false in
/-- THE RUN, at any float instance: from any memory with zero counters every weakly fair execution of @main terminates,
    nothing faulting; the result array ends at the last boundary's contents and every argument array as launched. -/
theorem run : θ_run defs (onTc (τ := τ) (main (F := F))) ⟨m, fun _ => 0, ρ⟩ (fun r => ∀ c : Dev nD,
      r.2.mem ((c.tc : Thread nD τ).loc main_v60) = W6 m c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c =>
      ⟨h c _ (mem_uc main_v60 (by decide)),
       (h c _ (mem_uc main_arg0 (by decide))).trans (W6_launch m c main_arg0 (by decide) (by decide) (by decide) (by decide) (by decide) (by decide)),
       (h c _ (mem_uc main_arg1 (by decide))).trans (W6_launch m c main_arg1 (by decide) (by decide) (by decide) (by decide) (by decide) (by decide)),
       (h c _ (mem_uc main_arg2 (by decide))).trans (W6_launch m c main_arg2 (by decide) (by decide) (by decide) (by decide) (by decide) (by decide)),
       (h c _ (mem_uc main_arg3 (by decide))).trans (W6_launch m c main_arg3 (by decide) (by decide) (by decide) (by decide) (by decide) (by decide)),
       (h c _ (mem_uc main_arg4 (by decide))).trans (W6_launch m c main_arg4 (by decide) (by decide) (by decide) (by decide) (by decide) (by decide)),
       (h c _ (mem_uc main_arg5 (by decide))).trans (W6_launch m c main_arg5 (by decide) (by decide) (by decide) (by decide) (by decide) (by decide)),
       (h c _ (mem_uc main_arg6 (by decide))).trans (W6_launch m c main_arg6 (by decide) (by decide) (by decide) (by decide) (by decide) (by decide)),
       (h c _ (mem_uc main_arg7 (by decide))).trans (W6_launch m c main_arg7 (by decide) (by decide) (by decide) (by decide) (by decide) (by decide)),
       (h c _ (mem_uc main_arg8 (by decide))).trans (W6_launch m c main_arg8 (by decide) (by decide) (by decide) (by decide) (by decide) (by decide)),
       (h c _ (mem_uc main_arg9 (by decide))).trans (W6_launch m c main_arg9 (by decide) (by decide) (by decide) (by decide) (by decide) (by decide))⟩)

end Cert.KernelIdeal.Run

end
-- ==== Proof.RefRead.lean ====
/- The reference's run and its read-at-an-index lemmas, gathered for the modules that compare the reference with the
   kernel's value. -/
import proofs.«129383_j28845000360148_1_alg».proof.Proof.Gen.ReferenceIdeal.Run
import proofs.«129383_j28845000360148_1_alg».proof.Proof.Gen.ReferenceIdeal.Read
-- ==== Proof.KernelIdeal.Chain.lean ====
/- The idealized kernel's result as a function of the argument arrays. Between the regions the host applies the same
   chain each time: gather the rows of a 100000 x 64 array at the edges' sources, scale row by row by the edge
   normalisation, and add the rows up at the edges' targets. The chain is kept as one function `agg` of the edge list and
   the array, never opened; the edge list's index vectors and the normalisation depend on the edge list alone. -/
import proofs.«129383_j28845000360148_1_alg».proof.Proof.KernelIdeal.Run
import Idealize.ShloMosaic.Lib.StableHlo.Run

set_option maxRecDepth 16384

noncomputable section

namespace Cert.KernelIdeal.Chain

open Cert.KernelIdeal Cert.KernelIdeal.Gen Cert.KernelIdeal.Run
open Idealize.ShloMosaic Idealize.ShloMosaic.TcCoe Idealize.SL.Sem Idealize.ShloMosaic.StableHlo

/-- The edge list, an index vector over the edges and the self-loops, and the node features' type. -/
abbrev EdgeList := (⟨S2x1000000, .i32⟩ : BufTy).Contents (Elt Ideal)
abbrev IdxVec := (⟨S1100000, .i32⟩ : BufTy).Contents (Elt Ideal)

/-- The sources (row 0 of the edge list) followed by every node once (the self-loops). -/
def src (e : EdgeList) : IdxVec :=
  concatenate S1100000 0 [⟨S1000000, (shapeCast _ (extractStridedSlice S1x1000000 ![0, 0] e slices_S2x1000000_S1x1000000_0_0) shapeCasts_S1x1000000_S1000000)⟩, ⟨S100000, (iotaInDim S100000 32 0)⟩] concatenates_S1000000_S100000_S1100000_d0
/-- The targets (row 1 of the edge list) followed by every node once. -/
def dst (e : EdgeList) : IdxVec :=
  concatenate S1100000 0 [⟨S1000000, (shapeCast _ (extractStridedSlice S1x1000000 ![1, 0] e slices_S2x1000000_S1x1000000_1_0) shapeCasts_S1x1000000_S1000000)⟩, ⟨S100000, (iotaInDim S100000 32 0)⟩] concatenates_S1000000_S100000_S1100000_d0
/-- A negative index counts from the end. -/
def wrap (v : IdxVec) : IdxVec :=
  select (cmpi .slt v (broadcastInDim S1100000 ![] bcast_S_S1100000 (constantI S_ 32 0#32))) (addi v (broadcastInDim S1100000 ![] bcast_S_S1100000 (constantI S_ 32 100000#32))) v
/-- One over the square root of each node's in-degree (self-loop included), the degree clamped below. -/
def dinv (e : EdgeList) : FVec Ideal S100000 .f32 :=
  Host.rsqrt (maximumf (Host.scatterAdd scatter_S100000_S1100000x1_S1100000_n_0_0_1 (broadcastInDim S100000 ![] bcast_S_S100000 (constant (F := Ideal) S_ .f32 0x00000000#32)) (broadcastInDim S1100000x1 ![0] bcast_S1100000_S1100000x1_0 (dst e)) (broadcastInDim S1100000 ![] bcast_S_S1100000 (constant (F := Ideal) S_ .f32 0x3F800000#32))) (broadcastInDim S100000 ![] bcast_S_S100000 (constant (F := Ideal) S_ .f32 0x2B8CBCCC#32)))
/-- The edge normalisation: the product of the two ends' factors. -/
def nrm (e : EdgeList) : FVec Ideal S1100000 .f32 :=
  mulf (Host.gather gather_S100000_S1100000x1_S1100000_n_0_n_n_0_1_1 (dinv e) (broadcastInDim S1100000x1 ![0] bcast_S1100000_S1100000x1_0 (wrap (src e)))) (Host.gather gather_S100000_S1100000x1_S1100000_n_0_n_n_0_1_1 (dinv e) (broadcastInDim S1100000x1 ![0] bcast_S1100000_S1100000x1_0 (wrap (dst e))))
/-- THE AGGREGATION of a 100000 x 64 array over the edges. -/
def agg (e : EdgeList) (h : FVec Ideal S100000x64 .f32) : FVec Ideal S100000x64 .f32 :=
  Host.scatterAdd scatter_S100000x64_S1100000x1_S1100000x64_1_0_0_1 (broadcastInDim S100000x64 ![] bcast_S_S100000x64 (constant (F := Ideal) S_ .f32 0x00000000#32)) (broadcastInDim S1100000x1 ![0] bcast_S1100000_S1100000x1_0 (dst e)) (mulf (Host.gather gather_S100000x64_S1100000x1_S1100000x64_1_0_n_n_0_1_164 h (broadcastInDim S1100000x1 ![0] bcast_S1100000_S1100000x1_0 (wrap (src e)))) (broadcastInDim S1100000x64 ![0, 1] bcast_S1100000x1_S1100000x64_0_1 (broadcastInDim S1100000x1 ![0] bcast_S1100000_S1100000x1_0 (nrm e))))

variable (m : (ℓ : Loc nD τ sig) → Buf (Elt Ideal) ℓ)

/-- The edge list as launched. -/
abbrev edges (c : Dev nD) : EdgeList := m ((c.tc : Thread nD τ).loc main_arg1)

/-! ## What the first host stretch leaves -/

theorem W1_src (c : Dev nD) : W1 m c (Proc.devRef .tc main_v5) = src (edges m c) := by
  show StableHlo.after hostOps0 (fun b => m (c, b)) (Proc.devRef .tc main_v5) = _
  unfold src; after_results_simp <;> rfl
theorem W1_dst (c : Dev nD) : W1 m c (Proc.devRef .tc main_v6) = dst (edges m c) := by
  show StableHlo.after hostOps0 (fun b => m (c, b)) (Proc.devRef .tc main_v6) = _
  unfold dst; after_results_simp <;> rfl
theorem W1_nrm (c : Dev nD) : W1 m c (Proc.devRef .tc main_v28) = nrm (edges m c) := by
  show StableHlo.after hostOps0 (fun b => m (c, b)) (Proc.devRef .tc main_v28) = _
  unfold nrm dinv wrap src dst; after_results_simp <;> rfl

/-! ## Buffers that reach a boundary as launched, or as the first stretch left them -/

theorem W1_launch (c : Dev nD) (b : Ref sig .tc) (h0 : b ∉ hostOps0_W) : W1 m c (Proc.devRef .tc b) = m ((c : Thread nD τ).loc b) :=
  (StableHlo.after_of_writes_sub hostOps0 _ hostOps0_writes h0).trans rfl
theorem W3_of_W2 (c : Dev nD) (b : Ref sig .tc) (h1 : b ∉ hostOps1_W) : W3 m c (Proc.devRef .tc b) = W2 m c (Proc.devRef .tc b) :=
  StableHlo.after_of_writes_sub hostOps1 _ hostOps1_writes h1
theorem W5_of_W4 (c : Dev nD) (b : Ref sig .tc) (h2 : b ∉ hostOps2_W) : W5 m c (Proc.devRef .tc b) = W4 m c (Proc.devRef .tc b) :=
  StableHlo.after_of_writes_sub hostOps2 _ hostOps2_writes h2
/-- A buffer the later stretches do not write and no region's result lands in holds at region 1's and region 2's entry
    what the first stretch left. -/
theorem W2_of_W1 (c : Dev nD) (b : Ref sig .tc) (n0 : b ≠ main_v29) : W2 m c (Proc.devRef .tc b) = W1 m c (Proc.devRef .tc b) :=
  W2_keep m c b n0
theorem W4_of_W1 (c : Dev nD) (b : Ref sig .tc) (h1 : b ∉ hostOps1_W) (n0 : b ≠ main_v29) (n1 : b ≠ main_v44) :
    W4 m c (Proc.devRef .tc b) = W1 m c (Proc.devRef .tc b) :=
  (W4_keep m c b n1).trans <| (W3_of_W2 m c b h1).trans (W2_keep m c b n0)

theorem W2_src (c : Dev nD) : W2 m c (Proc.devRef .tc main_v5) = src (edges m c) := (W2_of_W1 m c main_v5 (by decide)).trans (W1_src m c)
theorem W2_dst (c : Dev nD) : W2 m c (Proc.devRef .tc main_v6) = dst (edges m c) := (W2_of_W1 m c main_v6 (by decide)).trans (W1_dst m c)
theorem W2_nrm (c : Dev nD) : W2 m c (Proc.devRef .tc main_v28) = nrm (edges m c) := (W2_of_W1 m c main_v28 (by decide)).trans (W1_nrm m c)
theorem W4_src (c : Dev nD) : W4 m c (Proc.devRef .tc main_v5) = src (edges m c) := (W4_of_W1 m c main_v5 (by decide) (by decide) (by decide)).trans (W1_src m c)
theorem W4_dst (c : Dev nD) : W4 m c (Proc.devRef .tc main_v6) = dst (edges m c) := (W4_of_W1 m c main_v6 (by decide) (by decide) (by decide)).trans (W1_dst m c)
theorem W4_nrm (c : Dev nD) : W4 m c (Proc.devRef .tc main_v28) = nrm (edges m c) := (W4_of_W1 m c main_v28 (by decide) (by decide) (by decide)).trans (W1_nrm m c)

/-! ## What the second and third host stretches leave -/

/-- Region 1 is entered with the aggregate of region 0's result, -/
theorem W3_agg (c : Dev nD) : W3 m c (Proc.devRef .tc main_v42) = agg (edges m c) (W2 m c (Proc.devRef .tc main_v29)) := by
  show StableHlo.after hostOps1 (W2 m c) (Proc.devRef .tc main_v42) = _
  unfold agg wrap
  rw [← W2_src m c, ← W2_dst m c, ← W2_nrm m c]
  after_results_simp <;> rfl
/-- with the first bias as a 1 x 64 row, -/
theorem W3_b1 (c : Dev nD) :
    W3 m c (Proc.devRef .tc main_v43) = shapeCast _ (m ((c : Thread nD τ).loc main_arg4)) shapeCasts_S64_S1x64 := by
  show StableHlo.after hostOps1 (W2 m c) (Proc.devRef .tc main_v43) = _
  rw [← W1_launch m c main_arg4 (by decide), ← W2_of_W1 m c main_arg4 (by decide)]
  after_results_simp <;> rfl
/-- and the second weight matrix as launched. -/
theorem W3_w2 (c : Dev nD) : W3 m c (Proc.devRef .tc main_arg5) = m ((c : Thread nD τ).loc main_arg5) :=
  (W3_of_W2 m c main_arg5 (by decide)).trans <| (W2_of_W1 m c main_arg5 (by decide)).trans (W1_launch m c main_arg5 (by decide))

/-- Region 2 is entered with the aggregate of region 1's result, -/
theorem W5_agg (c : Dev nD) : W5 m c (Proc.devRef .tc main_v57) = agg (edges m c) (W4 m c (Proc.devRef .tc main_v44)) := by
  show StableHlo.after hostOps2 (W4 m c) (Proc.devRef .tc main_v57) = _
  unfold agg wrap
  rw [← W4_src m c, ← W4_dst m c, ← W4_nrm m c]
  after_results_simp <;> rfl
/-- the second bias as a 1 x 64 row, the last bias as a 1 x 1 array, -/
theorem W5_b2 (c : Dev nD) :
    W5 m c (Proc.devRef .tc main_v58) = shapeCast _ (m ((c : Thread nD τ).loc main_arg6)) shapeCasts_S64_S1x64 := by
  show StableHlo.after hostOps2 (W4 m c) (Proc.devRef .tc main_v58) = _
  rw [← W1_launch m c main_arg6 (by decide), ← W4_of_W1 m c main_arg6 (by decide) (by decide) (by decide)]
  after_results_simp <;> rfl
theorem W5_fb (c : Dev nD) :
    W5 m c (Proc.devRef .tc main_v59) = shapeCast _ (m ((c : Thread nD τ).loc main_arg9)) shapeCasts_S1_S1x1 := by
  show StableHlo.after hostOps2 (W4 m c) (Proc.devRef .tc main_v59) = _
  rw [← W1_launch m c main_arg9 (by decide), ← W4_of_W1 m c main_arg9 (by decide) (by decide) (by decide)]
  after_results_simp <;> rfl
/-- and the final weight column as launched. -/
theorem W5_fw (c : Dev nD) : W5 m c (Proc.devRef .tc main_arg8) = m ((c : Thread nD τ).loc main_arg8) :=
  (W5_of_W4 m c main_arg8 (by decide)).trans <| (W4_of_W1 m c main_arg8 (by decide) (by decide) (by decide)).trans (W1_launch m c main_arg8 (by decide))

end Cert.KernelIdeal.Chain

end
-- ==== Proof.Spec.lean ====
/- What the three kernel regions compute, as functions of whole arrays on the extended reals, entry by entry.
   Region 0: the product of the 100000 x 64 node features and a 64 x 64 weight matrix. Region 1: the same product
   taken of the features with a bias row added and clamped at zero. Region 2: the column sums of the biased, clamped
   features over all 100000 rows, scaled by 1/100000, contracted with a 64 x 1 weight column, plus a bias. -/
import Idealize.ShloMosaic.PureOps.Ideal
import Idealize.ShloMosaic.Lib.ValueIdx

noncomputable section

namespace Cert.Spec

open Idealize.ShloMosaic Idealize.ShloMosaic.ValueIdx
open scoped BigOperators

/-- The literal shapes: node features, a weight matrix, a bias row, the final weight column, the 1 x 1 result. -/
abbrev SN : Shape := ⟨2, ![100000, 64]⟩
abbrev SW : Shape := ⟨2, ![64, 64]⟩
abbrev SRow : Shape := ⟨2, ![1, 64]⟩
abbrev SCol : Shape := ⟨2, ![64, 1]⟩
abbrev SOne : Shape := ⟨2, ![1, 1]⟩

/-- Entry (p, q) of the matrix product `x · w`. -/
def mmAt (x : SN.Idx → EReal) (w : SW.Idx → EReal) (p : Fin 100000) (q : Fin 64) : EReal :=
  ∑ k : Fin 64, x (ix2 p k) * w (ix2 k q)

/-- The matrix product as a whole array. -/
def mm (x : SN.Idx → EReal) (w : SW.Idx → EReal) : SN.Idx → EReal := fun i => mmAt x w (i 0) (i 1)

/-- Entry (p, k) of the features with the bias row added and clamped at zero. -/
def actAt (a : SN.Idx → EReal) (b : SRow.Idx → EReal) (p : Fin 100000) (k : Fin 64) : EReal :=
  max (a (ix2 p k) + b (ix2 0 k)) 0

/-- Entry (p, q) of the second layer's product: the clamped, biased features times the weights. -/
def layerAt (a : SN.Idx → EReal) (b : SRow.Idx → EReal) (w : SW.Idx → EReal) (p : Fin 100000) (q : Fin 64) : EReal :=
  ∑ k : Fin 64, actAt a b p k * w (ix2 k q)

def layer (a : SN.Idx → EReal) (b : SRow.Idx → EReal) (w : SW.Idx → EReal) : SN.Idx → EReal :=
  fun i => layerAt a b w (i 0) (i 1)

/-- Column `k`'s sum of the clamped, biased features over all rows. -/
def colSum (a : SN.Idx → EReal) (b : SRow.Idx → EReal) (k : Fin 64) : EReal := ∑ r : Fin 100000, actAt a b r k

/-- The pooled result: the mean of each column, contracted with the weight column, plus the bias. -/
def poolVal (a : SN.Idx → EReal) (b : SRow.Idx → EReal) (fw : SCol.Idx → EReal) (fb : SOne.Idx → EReal) : EReal :=
  (∑ k : Fin 64, (colSum a b k * ((1 / 100000 : ℝ) : EReal)) * fw (ix2 k 0)) + fb (ix2 0 0)

def pool (a : SN.Idx → EReal) (b : SRow.Idx → EReal) (fw : SCol.Idx → EReal) (fb : SOne.Idx → EReal) : SOne.Idx → EReal :=
  fun _ => poolVal a b fw fb

end Cert.Spec

end
-- ==== Proof.LibPlainDot.lean ====
/-
  A plain two-dimensional matrix product read at an entry.

  For a dot whose dimension numbers are those of `rows × contraction` times `contraction × columns` — left
  contracting axis 1, right contracting axis 0, the remaining left axis then the remaining right axis as the result's
  axes, no batch axis — the left operand's index at result entry `(p, q)` and contraction position `k` is `(p, k)`,
  the right operand's is `(k, q)`. So, on the extended reals, a kernel's `matmul` into the zero accumulator and a
  host `dot_general` are both the textbook sum `∑ k, l (p, k) * r (k, q)` over `k : Fin K`.

  The dimension record is a variable; its printed fields enter as hypotheses (each is `rfl` for a printed record).
-/
import Idealize.ShloMosaic.PureOps.Ideal
import Idealize.ShloMosaic.PureOps.Ideal.Laws
import Idealize.ShloMosaic.Lib.ValueIdx

noncomputable section

namespace Cert.PlainDot

open Idealize.ShloMosaic Idealize.ShloMosaic.ValueIdx

variable {R K C : ℕ} (d : DotDims (⟨2, ![R, K]⟩ : Shape) (⟨2, ![K, C]⟩ : Shape) (⟨2, ![R, C]⟩ : Shape))

/-- A coordinate of an index depends only on the axis' position. -/
private theorem coord_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hlb : d.lhsBatch = []) (hln : d.lhsNonContracting = [0])
    (j : (⟨2, ![R, C]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The left operand's column is the contraction position. -/
theorem lhs_col (hlc : d.lhsContracting = [1]) (j : (⟨2, ![R, C]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![R, C]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0]) (hrn : d.rhsNonContracting = [1])
    (j : (⟨2, ![R, C]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- The contraction shape has one axis, of extent `K`. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  rw [d.size_contr 0 (by rw [hlc]; exact Nat.one_pos)]
  simp [hlc]

/-- THE SUM over the dot's own contraction index, re-indexed by `k : Fin K` with the operands read at `(p, k)` and `(k, q)`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![R, K]⟩ : Shape).Idx → EReal) (r : (⟨2, ![K, C]⟩ : Shape).Idx → EReal) (p : Fin R) (q : Fin C) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_row d hlb hln _ _
    | ⟨1, _⟩ => exact (lhs_col d hlc _ _).trans hk
  have er : d.rhsIdx (ix2 p q) ((contrEquiv1 d K (contr_rank d hlc) (contr_size d hlc)).symm k) = ix2 k q := by
    funext a; apply Fin.ext
    match a with
    | ⟨0, _⟩ => exact (rhs_row d hrc _ _).trans hk
    | ⟨1, _⟩ => exact rhs_col d hlb hrb hln hrn _ _
  rw [el, er]

/-- A kernel's matrix product into the zero accumulator, at an entry, on the extended reals. -/
theorem matmul_zero_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision)
    (l : FVec Ideal (⟨2, ![R, K]⟩ : Shape) φ₁) (r : FVec Ideal (⟨2, ![K, C]⟩ : Shape) φ₂) (p : Fin R) (q : Fin C) :
    FloatOps.matmul d prec l r (constant (⟨2, ![R, C]⟩ : Shape) .f32 0x00000000#32) (ix2 p q) = ∑ k : Fin K, l (ix2 p k) * r (ix2 k q) :=
  (Ideal.matmul_constant_zero_apply d prec l r (ix2 p q)).trans (sum_contr d hlc hrc hln hrn hlb hrb l r p q)

/-- The host's `dot_general`, at an entry, on the extended reals: the same sum. -/
theorem dotGeneral_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision) (sched : HostSchedule)
    (l : FVec Ideal (⟨2, ![R, K]⟩ : Shape) φ₁) (r : FVec Ideal (⟨2, ![K, C]⟩ : Shape) φ₂) (p : Fin R) (q : Fin C) :
    FloatOps.dotGeneral d prec sched l r (ix2 p q) = ∑ k : Fin K, l (ix2 p k) * r (ix2 k q) :=
  (Ideal.dotGeneral_apply d prec sched l r (ix2 p q)).trans (sum_contr d hlc hrc hln hrn hlb hrb l r p q)

end Cert.PlainDot

end
-- ==== Proof.KernelIdeal.Val01.lean ====
/- The first two regions' result arrays after all their write-backs, as whole arrays on the extended reals.
   Region 0: each of the ten grid points multiplies its block of 10000 rows of the node features by the 64 x 64 weight
   matrix; the blocks tile the 100000 rows, so the result array is the matrix product, entry by entry.
   Region 1: the same with the bias row added to the block and the sum clamped at zero before the product.
   A block's entry (p, q) at grid point t is the array's entry (t * 10000 + p, q); the weight matrix and the bias row
   are one block each, the same at every point; the point that writes row r is r / 10000. Rounding to the narrower
   float format is the identity on the extended reals, and the zero word denotes 0. -/
import proofs.«129383_j28845000360148_1_alg».proof.Proof.KernelIdeal.R0
import proofs.«129383_j28845000360148_1_alg».proof.Proof.KernelIdeal.R1
import proofs.«129383_j28845000360148_1_alg».proof.Proof.Spec
import proofs.«129383_j28845000360148_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val01

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

local notation "𝕄" => MT nD τ sig Unit (Elt Ideal) ℕ (UR sig nD τ) ℕ

/-- The two zero offsets of a whole-buffer rectangle, as the constant function. -/
theorem zero_off : (![0, 0] : Fin 2 → Nat) = fun _ => 0 := funext fun a => by fin_cases a <;> rfl

/-! ## Region 0: the matrix product -/

/-- The body's product at entry `(p, q)`: the sum over the 64 contraction positions of row `p` of the left block
    times column `q` of the right one (the accumulator is zero; the narrowing of the operands changes nothing). -/
theorem prod0_entry (x0 : Vec Ideal S10000x64 .f32) (x1 : Vec Ideal S64x64 .f32) (p : Fin 10000) (q : Fin 64) :
    k0_pay1 (F := Ideal) x0 x1 (ix2 p q) = ∑ k : Fin 64, x0 (ix2 p k) * x1 (ix2 k q) := by
  unfold k0_pay1
  exact Cert.PlainDot.matmul_zero_apply dot_S10000x64_S64x64_S10000x64_1_0_0_1_n_n rfl rfl rfl rfl rfl rfl none _ _ p q

/-- What the body leaves in the result's buffer, at entry `(p, q)`: that product of the two whole buffers. -/
theorem stored0_entry (x0 : Vec Ideal S10000x64 .f32) (x1 : Vec Ideal S64x64 .f32) (p : Fin 10000) (q : Fin 64) :
    R0.outBlk (F := Ideal) x0 x1 (ix2 p q) = ∑ k : Fin 64, x0 (ix2 p k) * x1 (ix2 k q) := by
  unfold R0.outBlk
  rw [View.canon_unit_zero zero_off]
  simp only [View.ld_unit_zero (S := S10000x64) zero_off, View.ld_unit_zero (S := S64x64) zero_off]
  exact prod0_entry x0 x1 p q

/-- The block indices at grid point `t`: the feature rows' and the result's are `(t, 0)`, the weights' `(0, 0)`. -/
theorem blockIdx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Entry `(p, q)` of the result's block at point `t` is the result array's entry `(t * 10000 + p, q)`. -/
theorem at0_out (t : Fin cfg0.N) (p : Fin 10000) (q : Fin 64) (h : t.val * 10000 + p.val < 100000) :
    ((cfg0.win 2).blk t).view.emb (ix2 p q) = (ix2 (⟨t.val * 10000 + p.val, h⟩ : Fin 100000) q : S100000x64.Idx) := by
  obtain ⟨-, -, -, -, e20, e21⟩ := blockIdx0 t
  funext a; apply Fin.ext
  match a with
  | ⟨0, _⟩ => show win0_2.index t (0 : Fin 2) * 10000 + 1 * p.val = t.val * 10000 + p.val; omega
  | ⟨1, _⟩ => show win0_2.index t (1 : Fin 2) * 64 + 1 * q.val = q.val; omega

/-- Entry `(p, k)` of the feature block at point `t` is the feature array's entry `(t * 10000 + p, k)`. -/
theorem at0_rows (t : Fin cfg0.N) (p : Fin 10000) (k : Fin 64) (h : t.val * 10000 + p.val < 100000) :
    ((cfg0.win 0).blk t).view.emb (ix2 p k) = (ix2 (⟨t.val * 10000 + p.val, h⟩ : Fin 100000) k : S100000x64.Idx) := by
  obtain ⟨e00, e01, -, -, -, -⟩ := blockIdx0 t
  funext a; apply Fin.ext
  match a with
  | ⟨0, _⟩ => show win0_0.index t (0 : Fin 2) * 10000 + 1 * p.val = t.val * 10000 + p.val; omega
  | ⟨1, _⟩ => show win0_0.index t (1 : Fin 2) * 64 + 1 * k.val = k.val; omega

/-- The weights' block at every point is the whole weight matrix. -/
theorem at0_weights (t : Fin cfg0.N) (k : Fin 64) (q : Fin 64) :
    ((cfg0.win 1).blk t).view.emb (ix2 k q) = (ix2 k q : S64x64.Idx) := by
  obtain ⟨-, -, e10, e11, -, -⟩ := blockIdx0 t
  funext a; apply Fin.ext
  match a with
  | ⟨0, _⟩ => show win0_1.index t (0 : Fin 2) * 64 + 1 * k.val = k.val; omega
  | ⟨1, _⟩ => show win0_1.index t (1 : Fin 2) * 64 + 1 * q.val = q.val; omega

/-- What point `t` writes back is block `t` of the matrix product of the two arrays as the region finds them:
    rows `t * 10000 …` of the features against the whole weight matrix. -/
theorem written0 (c : Dev nD) (t : Fin cfg0.N) :
    (R0.dat (F := Ideal) V c).flushed 2 t
      = ((cfg0.win 2).blk t).view.read (Elt Ideal) (Cert.Spec.mm (V c main_arg0) (V c main_arg3) : S100000x64.Idx → EReal) := by
  show (cfg0.win 2).cut (grid0.coords t) ((R0.dat (F := Ideal) V c).after 2 t) = _
  rw [R0.after_2]
  funext (j : S10000x64.Idx)
  obtain ⟨p, q, rfl⟩ : ∃ (p : Fin 10000) (q : Fin 64), j = ix2 p q := ⟨j 0, j 1, eq_ix2 j⟩
  have ht : t.val < 10 := N_0 ▸ t.isLt
  have hr : t.val * 10000 + p.val < 100000 := by have := p.isLt; omega
  show R0.outBlk (R0.iblk V c 0 t) (R0.iblk V c 1 t) (ix2 p q)
    = Cert.Spec.mm (V c main_arg0) (V c main_arg3) (((cfg0.win 2).blk t).view.emb (ix2 p q))
  refine (stored0_entry (R0.iblk V c 0 t) (R0.iblk V c 1 t) p q).trans ?_
  rw [at0_out t p q hr]
  show _ = Cert.Spec.mmAt (V c main_arg0) (V c main_arg3) (⟨t.val * 10000 + p.val, hr⟩ : Fin 100000) q
  unfold Cert.Spec.mmAt
  refine Finset.sum_congr rfl fun k _ => ?_
  have h1 : R0.iblk V c 0 t (ix2 p k) = V c main_arg0 (ix2 (⟨t.val * 10000 + p.val, hr⟩ : Fin 100000) k) := by
    show V c main_arg0 (((cfg0.win 0).blk t).view.emb (ix2 p k)) = _
    rw [at0_rows t p k hr]
  have h2 : R0.iblk V c 1 t (ix2 k q) = V c main_arg3 (ix2 k q) := by
    show V c main_arg3 (((cfg0.win 1).blk t).view.emb (ix2 k q)) = _
    rw [at0_weights t k q]
  rw [h1, h2]

/-- An entry of the result array is in point `t`'s block iff each coordinate is in the block's range on its axis. -/
theorem inBlock0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v29).slice (win0_2.rect t)).set ↔ _
  rw [View.set_slice_whole, Rect.mem_set_unit]
  exact Iff.rfl

/-- Every entry of the result array is written back by some point: row `r` by point `r / 10000`. -/
theorem covered0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by omega⟩, rfl⟩
  refine ⟨t, flush0_2 t, ?_⟩
  rw [inBlock0]
  obtain ⟨-, -, -, -, e20, e21⟩ := blockIdx0 t
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- After the ten write-backs the first region's result array is the whole matrix product, entry by entry. -/
theorem final0 (c : Dev nD) :
    (R0.dat (F := Ideal) V c).arrAt 2 cfg0.N
      = (Cert.Spec.mm (V c main_arg0) (V c main_arg3) : S100000x64.Idx → EReal) :=
  (R0.dat (F := Ideal) V c).arrAt_eq_of_cover 2 _ (fun t _ => written0 V c t) covered0

/-! ## Region 1: bias, clamp at zero, then the matrix product -/

/-- The body's product at entry `(p, q)`: the left operand's entry `(p, k)` is the block's entry plus the bias row's
    entry `k` (the row is repeated down the block), clamped at zero; the rest as in region 0. -/
theorem prod1_entry (x0 : Vec Ideal S10000x64 .f32) (x1 : Vec Ideal S1x64 .f32) (x2 : Vec Ideal S64x64 .f32)
    (p : Fin 10000) (q : Fin 64) :
    k1_pay1 (F := Ideal) x0 x1 x2 (ix2 p q)
      = ∑ k : Fin 64, max (x0 (ix2 p k) + x1 (ix2 (0 : Fin 1) k)) 0 * x2 (ix2 k q) := by
  unfold k1_pay1
  refine (Cert.PlainDot.matmul_zero_apply dot_S10000x64_S64x64_S10000x64_1_0_0_1_n_n rfl rfl rfl rfl rfl rfl none _ _ p q).trans ?_
  refine Finset.sum_congr rfl fun k _ => ?_
  simp only [truncf_apply, maximumf_apply, addf_apply, broadcast_apply]
  rw [shapeCast_self, shapeCast_self, broadcastTo_1b_ab_apply, Ideal.ofBits_def, Ideal.ofBits_zero_f32]

/-- What the body leaves in the result's buffer, at entry `(p, q)`: that product of the three whole buffers. -/
theorem stored1_entry (x0 : Vec Ideal S10000x64 .f32) (x1 : Vec Ideal S1x64 .f32) (x2 : Vec Ideal S64x64 .f32)
    (p : Fin 10000) (q : Fin 64) :
    R1.outBlk (F := Ideal) x0 x1 x2 (ix2 p q)
      = ∑ k : Fin 64, max (x0 (ix2 p k) + x1 (ix2 (0 : Fin 1) k)) 0 * x2 (ix2 k q) := by
  unfold R1.outBlk
  rw [View.canon_unit_zero zero_off]
  simp only [View.ld_unit_zero (S := S10000x64) zero_off, View.ld_unit_zero (S := S1x64) zero_off,
    View.ld_unit_zero (S := S64x64) zero_off]
  exact prod1_entry x0 x1 x2 p q

/-- The block indices at grid point `t`: the rows' and the result's are `(t, 0)`, the bias row's and the weights' `(0, 0)`. -/
theorem blockIdx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry `(p, q)` of the result's block at point `t` is the result array's entry `(t * 10000 + p, q)`. -/
theorem at1_out (t : Fin cfg1.N) (p : Fin 10000) (q : Fin 64) (h : t.val * 10000 + p.val < 100000) :
    ((cfg1.win 3).blk t).view.emb (ix2 p q) = (ix2 (⟨t.val * 10000 + p.val, h⟩ : Fin 100000) q : S100000x64.Idx) := by
  obtain ⟨-, -, -, -, -, -, e30, e31⟩ := blockIdx1 t
  funext a; apply Fin.ext
  match a with
  | ⟨0, _⟩ => show win1_3.index t (0 : Fin 2) * 10000 + 1 * p.val = t.val * 10000 + p.val; omega
  | ⟨1, _⟩ => show win1_3.index t (1 : Fin 2) * 64 + 1 * q.val = q.val; omega

/-- Entry `(p, k)` of the rows' block at point `t` is the array's entry `(t * 10000 + p, k)`. -/
theorem at1_rows (t : Fin cfg1.N) (p : Fin 10000) (k : Fin 64) (h : t.val * 10000 + p.val < 100000) :
    ((cfg1.win 0).blk t).view.emb (ix2 p k) = (ix2 (⟨t.val * 10000 + p.val, h⟩ : Fin 100000) k : S100000x64.Idx) := by
  obtain ⟨e00, e01, -, -, -, -, -, -⟩ := blockIdx1 t
  funext a; apply Fin.ext
  match a with
  | ⟨0, _⟩ => show win1_0.index t (0 : Fin 2) * 10000 + 1 * p.val = t.val * 10000 + p.val; omega
  | ⟨1, _⟩ => show win1_0.index t (1 : Fin 2) * 64 + 1 * k.val = k.val; omega

/-- The bias row's block at every point is the whole row. -/
theorem at1_bias (t : Fin cfg1.N) (k : Fin 64) :
    ((cfg1.win 1).blk t).view.emb (ix2 (0 : Fin 1) k) = (ix2 (0 : Fin 1) k : S1x64.Idx) := by
  obtain ⟨-, -, e10, e11, -, -, -, -⟩ := blockIdx1 t
  funext a; apply Fin.ext
  match a with
  | ⟨0, _⟩ => show win1_1.index t (0 : Fin 2) * 1 + 1 * (0 : Fin 1).val = (0 : Fin 1).val; omega
  | ⟨1, _⟩ => show win1_1.index t (1 : Fin 2) * 64 + 1 * k.val = k.val; omega

/-- The weights' block at every point is the whole weight matrix. -/
theorem at1_weights (t : Fin cfg1.N) (k : Fin 64) (q : Fin 64) :
    ((cfg1.win 2).blk t).view.emb (ix2 k q) = (ix2 k q : S64x64.Idx) := by
  obtain ⟨-, -, -, -, e20, e21, -, -⟩ := blockIdx1 t
  funext a; apply Fin.ext
  match a with
  | ⟨0, _⟩ => show win1_2.index t (0 : Fin 2) * 64 + 1 * k.val = k.val; omega
  | ⟨1, _⟩ => show win1_2.index t (1 : Fin 2) * 64 + 1 * q.val = q.val; omega

/-- What point `t` writes back is block `t` of the second layer's product of the three arrays as the region finds
    them: rows `t * 10000 …` with the bias row added and clamped at zero, against the whole weight matrix. -/
theorem written1 (c : Dev nD) (t : Fin cfg1.N) :
    (R1.dat (F := Ideal) V c).flushed 3 t
      = ((cfg1.win 3).blk t).view.read (Elt Ideal)
          (Cert.Spec.layer (V c main_v42) (V c main_v43) (V c main_arg5) : S100000x64.Idx → EReal) := by
  show (cfg1.win 3).cut (grid1.coords t) ((R1.dat (F := Ideal) V c).after 3 t) = _
  rw [R1.after_3]
  funext (j : S10000x64.Idx)
  obtain ⟨p, q, rfl⟩ : ∃ (p : Fin 10000) (q : Fin 64), j = ix2 p q := ⟨j 0, j 1, eq_ix2 j⟩
  have ht : t.val < 10 := N_1 ▸ t.isLt
  have hr : t.val * 10000 + p.val < 100000 := by have := p.isLt; omega
  show R1.outBlk (R1.iblk V c 0 t) (R1.iblk V c 1 t) (R1.iblk V c 2 t) (ix2 p q)
    = Cert.Spec.layer (V c main_v42) (V c main_v43) (V c main_arg5) (((cfg1.win 3).blk t).view.emb (ix2 p q))
  refine (stored1_entry (R1.iblk V c 0 t) (R1.iblk V c 1 t) (R1.iblk V c 2 t) p q).trans ?_
  rw [at1_out t p q hr]
  show _ = Cert.Spec.layerAt (V c main_v42) (V c main_v43) (V c main_arg5) (⟨t.val * 10000 + p.val, hr⟩ : Fin 100000) q
  unfold Cert.Spec.layerAt Cert.Spec.actAt
  refine Finset.sum_congr rfl fun k _ => ?_
  have h1 : R1.iblk V c 0 t (ix2 p k) = V c main_v42 (ix2 (⟨t.val * 10000 + p.val, hr⟩ : Fin 100000) k) := by
    show V c main_v42 (((cfg1.win 0).blk t).view.emb (ix2 p k)) = _
    rw [at1_rows t p k hr]
  have h2 : R1.iblk V c 1 t (ix2 (0 : Fin 1) k) = V c main_v43 (ix2 (0 : Fin 1) k) := by
    show V c main_v43 (((cfg1.win 1).blk t).view.emb (ix2 (0 : Fin 1) k)) = _
    rw [at1_bias t k]
  have h3 : R1.iblk V c 2 t (ix2 k q) = V c main_arg5 (ix2 k q) := by
    show V c main_arg5 (((cfg1.win 2).blk t).view.emb (ix2 k q)) = _
    rw [at1_weights t k q]
  rw [h1, h2, h3]

/-- An entry of the result array is in point `t`'s block iff each coordinate is in the block's range on its axis. -/
theorem inBlock1 (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v44).slice (win1_3.rect t)).set ↔ _
  rw [View.set_slice_whole, Rect.mem_set_unit]
  exact Iff.rfl

/-- Every entry of the result array is written back by some point: row `r` by point `r / 10000`. -/
theorem covered1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  obtain ⟨t, ht⟩ : ∃ t : Fin cfg1.N, t.val = (i 0).val / 10000 := ⟨⟨(i 0).val / 10000, by omega⟩, rfl⟩
  refine ⟨t, flush1_3 t, ?_⟩
  rw [inBlock1]
  obtain ⟨-, -, -, -, -, -, e30, e31⟩ := blockIdx1 t
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 64 ≤ (i 1).val ∧ (i 1).val < win1_3.index t (1 : Fin 2) * 64 + 64
    omega

/-- After the ten write-backs the second region's result array is the second layer's product, entry by entry:
    the sum over `k` of the clamped, biased entry `(p, k)` times the weight `(k, q)`. -/
theorem final1 (c : Dev nD) :
    (R1.dat (F := Ideal) V c).arrAt 3 cfg1.N
      = (Cert.Spec.layer (V c main_v42) (V c main_v43) (V c main_arg5) : S100000x64.Idx → EReal) :=
  (R1.dat (F := Ideal) V c).arrAt_eq_of_cover 3 _ (fun t _ => written1 V c t) covered1

end Cert.KernelIdeal.Val01

end
-- ==== Proof.KernelIdeal.Val2.lean ====
/- The third region's result, as a value on the extended reals. The accumulator after point `n` holds, lane by lane,
   the column sums of the clamped, biased features over the rows of tiles 0 to `n`: the first point starts from zero,
   every point adds its own tile's 10000 rows, and a tile's entry `(r, k)` is the features' entry `(10000 t + r, k)`.
   Ten tiles of 10000 rows are the 100000 rows, so after the last point lane `k` is column `k`'s whole sum. Only the
   last point writes the 1 x 1 result back, and its block is the whole array; what it writes is the accumulator scaled
   by 1/100000, contracted with the 64 x 1 weight column, plus the bias: the pooled value. -/
import proofs.«129383_j28845000360148_1_alg».proof.Proof.KernelIdeal.R2
import proofs.«129383_j28845000360148_1_alg».proof.Proof.Spec
import proofs.«129383_j28845000360148_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

namespace Cert.KernelIdeal.Val2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

local notation "𝕄" => MT nD τ sig Unit (Elt Ideal) ℕ (UR sig nD τ) ℕ

/-- The accumulator the first point starts from is zero in every lane. -/
theorem accZero_apply (j : S1x64.Idx) : R2.accZero (F := Ideal) j = 0 := by
  unfold R2.accZero k2_pay1
  rw [shapeCast_self]
  exact Ideal.ofBits_zero_f32

/-- The source index over lane `k` with row `r` inserted is `(r, k)`. -/
theorem lift_rows (r : Fin 10000) (k : Fin 64) :
    (reduces_S10000x64_S64).lift (ix1 k) r = ix2 r k := by
  funext a; apply Fin.ext
  match a with
  | ⟨0, _⟩ => rfl
  | ⟨1, _⟩ => rfl

/-- The lane sum of a 10000 x 64 block at lane `k`: the sum of column `k` over the block's rows. -/
theorem laneSum_apply (src : FVec Ideal S10000x64 .f32) (hφ : FKind.Formats .f32)
    (hacc : (0x00000000#32 : BitVec 32) = 0x00000000#32) (k : Fin 64) :
    multiReduction (F := Ideal) .add [0] S64 src 0x00000000#32 reduces_S10000x64_S64 hφ hacc (ix1 k)
      = ∑ r : Fin 10000, src (ix2 r k) := by
  refine (Ideal.multiReduction_add_single src 0x00000000#32 reduces_S10000x64_S64 hφ hacc (ix1 k)).trans ?_
  exact Finset.sum_congr rfl fun r _ => congrArg src (lift_rows r k)

/-- One point's step at lane `k`: what the accumulator held plus the column sum of the block's clamped, biased entries. -/
theorem accStep_apply (x : Vec Ideal S10000x64 .f32) (b : Vec Ideal S1x64 .f32) (a : Vec Ideal S1x64 .f32) (k : Fin 64) :
    R2.accStep x b a (ix2 (0 : Fin 1) k) = a (ix2 (0 : Fin 1) k) + ∑ r : Fin 10000, max (x (ix2 r k) + b (ix2 (0 : Fin 1) k)) 0 := by
  unfold R2.accStep k2_pay2
  rw [shapeCast_self, shapeCast_self, shapeCast_self, addf_apply, shapeCast_a_1a_apply, laneSum_apply]
  refine congrArg (a (ix2 (0 : Fin 1) k) + ·) (Finset.sum_congr rfl fun r _ => ?_)
  rw [maximumf_apply, addf_apply, broadcast_apply, broadcastTo_1b_ab_apply, Ideal.ofBits_def, Ideal.ofBits_zero_f32]

/-- The named reciprocal is the rational 1/100000 on the extended reals, by the certificate's table. -/
theorem inv_rows : Named.named (F := Ideal) Cert.KernelIdeal.κ "inv_100000" (φ := .f32) 0x3727C5AC#32 = ((1 / 100000 : ℝ) : EReal) :=
  IdealRules.named_const.ideal_named_scalar _ _ _ _ rfl

/-- The last point's result: the accumulator scaled by 1/100000, contracted with the weight column, plus the bias. -/
theorem outFin_apply (a : Vec Ideal S1x64 .f32) (fw : Vec Ideal S64x1 .f32) (fb : Vec Ideal S1x1 .f32) :
    R2.outFin a fw fb (ix2 (0 : Fin 1) (0 : Fin 1))
      = (∑ k : Fin 64, (a (ix2 (0 : Fin 1) k) * ((1 / 100000 : ℝ) : EReal)) * fw (ix2 k (0 : Fin 1))) + fb (ix2 (0 : Fin 1) (0 : Fin 1)) := by
  unfold R2.outFin k2_pay3
  rw [addf_apply, shapeCast_self]
  refine congrArg (· + fb (ix2 (0 : Fin 1) (0 : Fin 1))) ?_
  refine (Cert.PlainDot.matmul_zero_apply dot_S1x64_S64x1_S1x1_1_0_0_1_n_n rfl rfl rfl rfl rfl rfl none _ _ (0 : Fin 1) (0 : Fin 1)).trans ?_
  refine Finset.sum_congr rfl fun k _ => ?_
  rw [truncf_apply, truncf_apply, mulf_apply, broadcast_apply, inv_rows]

/-- The printed index maps, decided over the grid: the row block's index is the point, every other block index is zero. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

variable (V : (c : Dev nD) → (b : Ref sig .tc) → Buf (Elt Ideal) ((c : Thread nD τ).loc b))

/-- Entry `(r, k)` of the row block at point `t` is entry `(10000 t + r, k)` of the features. -/
theorem blk0_apply (c : Dev nD) (t : Fin cfg2.N) (r : Fin 10000) (k : Fin 64) (h : 10000 * t.val + r.val < 100000) :
    R2.iblk (F := Ideal) V c 0 t (ix2 r k) = V c main_v57 (ix2 (⟨10000 * t.val + r.val, h⟩ : Fin 100000) k) := by
  obtain ⟨e0, e1, -⟩ := idx_facts t
  show V c main_v57 (((cfg2.win 0).blk t).view.emb (ix2 r k)) = V c main_v57 _
  refine congrArg (V c main_v57) (funext fun a => Fin.ext ?_)
  match a with
  | ⟨0, _⟩ => show win2_0.index t (0 : Fin 2) * 10000 + 1 * r.val = 10000 * t.val + r.val; omega
  | ⟨1, _⟩ => show win2_0.index t (1 : Fin 2) * 64 + 1 * k.val = k.val; omega

/-- The bias row's block at any point is the whole row. -/
theorem blk1_apply (c : Dev nD) (t : Fin cfg2.N) (k : Fin 64) :
    R2.iblk (F := Ideal) V c 1 t (ix2 (0 : Fin 1) k) = V c main_v58 (ix2 (0 : Fin 1) k) := by
  obtain ⟨-, -, e0, e1, -⟩ := idx_facts t
  show V c main_v58 (((cfg2.win 1).blk t).view.emb (ix2 (0 : Fin 1) k)) = V c main_v58 _
  refine congrArg (V c main_v58) (funext fun a => Fin.ext ?_)
  match a with
  | ⟨0, _⟩ => show win2_1.index t (0 : Fin 2) * 1 + 1 * 0 = 0; omega
  | ⟨1, _⟩ => show win2_1.index t (1 : Fin 2) * 64 + 1 * k.val = k.val; omega

/-- The weight column's block at any point is the whole column. -/
theorem blk2_apply (c : Dev nD) (t : Fin cfg2.N) (k : Fin 64) :
    R2.iblk (F := Ideal) V c 2 t (ix2 k (0 : Fin 1)) = V c main_arg8 (ix2 k (0 : Fin 1)) := by
  obtain ⟨-, -, -, -, e0, e1, -⟩ := idx_facts t
  show V c main_arg8 (((cfg2.win 2).blk t).view.emb (ix2 k (0 : Fin 1))) = V c main_arg8 _
  refine congrArg (V c main_arg8) (funext fun a => Fin.ext ?_)
  match a with
  | ⟨0, _⟩ => show win2_2.index t (0 : Fin 2) * 64 + 1 * k.val = k.val; omega
  | ⟨1, _⟩ => show win2_2.index t (1 : Fin 2) * 1 + 1 * 0 = 0; omega

/-- The final bias's block at any point is the whole 1 x 1 array. -/
theorem blk3_apply (c : Dev nD) (t : Fin cfg2.N) :
    R2.iblk (F := Ideal) V c 3 t (ix2 (0 : Fin 1) (0 : Fin 1)) = V c main_v59 (ix2 (0 : Fin 1) (0 : Fin 1)) := by
  obtain ⟨-, -, -, -, -, -, e0, e1, -⟩ := idx_facts t
  show V c main_v59 (((cfg2.win 3).blk t).view.emb (ix2 (0 : Fin 1) (0 : Fin 1))) = V c main_v59 _
  refine congrArg (V c main_v59) (funext fun a => Fin.ext ?_)
  match a with
  | ⟨0, _⟩ => show win2_3.index t (0 : Fin 2) * 1 + 1 * 0 = 0; omega
  | ⟨1, _⟩ => show win2_3.index t (1 : Fin 2) * 1 + 1 * 0 = 0; omega

/-- Column `k`'s clamped, biased entries as a sequence over the row number, zero past the last row. -/
def colSeq (a : Cert.Spec.SN.Idx → EReal) (b : Cert.Spec.SRow.Idx → EReal) (k : Fin 64) (i : ℕ) : EReal :=
  if h : i < 100000 then Cert.Spec.actAt a b ⟨i, h⟩ k else 0

/-- One tile's column sum is the sequence's sum over that tile's 10000 rows: for a block `x` whose entry `(r, k)`
    is the features' entry `(10000 t + r, k)` and a bias row `b` that is the features' bias at lane `k`. -/
theorem tile_sum (A : Cert.Spec.SN.Idx → EReal) (B : Cert.Spec.SRow.Idx → EReal) (x : Vec Ideal S10000x64 .f32)
    (b : Vec Ideal S1x64 .f32) (k : Fin 64) (t : ℕ) (ht : t < 10)
    (hx : ∀ (r : Fin 10000) (h : 10000 * t + r.val < 100000), x (ix2 r k) = A (ix2 (⟨10000 * t + r.val, h⟩ : Fin 100000) k))
    (hb : b (ix2 (0 : Fin 1) k) = B (ix2 (0 : Fin 1) k)) :
    ∑ r : Fin 10000, max (x (ix2 r k) + b (ix2 (0 : Fin 1) k)) 0
      = ∑ r ∈ Finset.range 10000, colSeq A B k (10000 * t + r) := by
  rw [← Fin.sum_univ_eq_sum_range (fun r => colSeq A B k (10000 * t + r)) 10000]
  refine Finset.sum_congr rfl fun r _ => ?_
  have h : 10000 * t + r.val < 100000 := by have := r.isLt; omega
  rw [hx r h, hb]
  unfold colSeq
  rw [dif_pos h]
  rfl

/-- The same at a point of the grid, with the point's blocks. -/
theorem tile_sum_at (c : Dev nD) (t : Fin cfg2.N) (k : Fin 64) :
    ∑ r : Fin 10000, max ((show Vec Ideal S10000x64 .f32 from R2.iblk (F := Ideal) V c 0 t) (ix2 r k)
        + (show Vec Ideal S1x64 .f32 from R2.iblk (F := Ideal) V c 1 t) (ix2 (0 : Fin 1) k)) 0
      = ∑ r ∈ Finset.range 10000, colSeq (V c main_v57) (V c main_v58) k (10000 * t.val + r) :=
  tile_sum (V c main_v57) (V c main_v58) (R2.iblk (F := Ideal) V c 0 t) (R2.iblk (F := Ideal) V c 1 t) k t.val
    (lt_of_lt_of_eq t.isLt (show cfg2.N = 10 from N_2)) (fun r h => blk0_apply V c t r k h) (blk1_apply V c t k)

/-- THE ACCUMULATOR after point `n`, at lane `k`: the sequence's sum over the rows of tiles 0 to `n`. -/
theorem acc_apply (c : Dev nD) (k : Fin 64) (n : ℕ) (hn : n < cfg2.N) :
    R2.acc (F := Ideal) V c n hn (ix2 (0 : Fin 1) k) = ∑ i ∈ Finset.range (10000 * (n + 1)), colSeq (V c main_v57) (V c main_v58) k i := by
  induction n with
  | zero =>
    show R2.accStep (R2.iblk (F := Ideal) V c 0 ⟨0, hn⟩) (R2.iblk (F := Ideal) V c 1 ⟨0, hn⟩) (R2.accZero (F := Ideal)) (ix2 (0 : Fin 1) k) = _
    refine (accStep_apply _ _ _ k).trans ?_
    rw [accZero_apply, zero_add]
    refine (tile_sum_at V c ⟨0, hn⟩ k).trans ?_
    refine Finset.sum_congr rfl fun r _ => ?_
    show colSeq _ _ k (10000 * 0 + r) = _
    rw [Nat.mul_zero, Nat.zero_add]
  | succ n ih =>
    show R2.accStep (R2.iblk (F := Ideal) V c 0 ⟨n + 1, hn⟩) (R2.iblk (F := Ideal) V c 1 ⟨n + 1, hn⟩)
      (R2.acc (F := Ideal) V c n (Nat.lt_of_succ_lt hn)) (ix2 (0 : Fin 1) k) = _
    refine (accStep_apply _ _ _ k).trans ?_
    rw [ih (Nat.lt_of_succ_lt hn), show 10000 * (n + 1 + 1) = 10000 * (n + 1) + 10000 by omega, Finset.sum_range_add]
    exact congrArg (_ + ·) (tile_sum_at V c ⟨n + 1, hn⟩ k)

/-- After the last point the accumulator's lane `k` is column `k`'s sum over all 100000 rows. -/
theorem acc_last (c : Dev nD) (k : Fin 64) (h : 9 < cfg2.N) :
    R2.acc (F := Ideal) V c 9 h (ix2 (0 : Fin 1) k) = Cert.Spec.colSum (V c main_v57) (V c main_v58) k := by
  rw [acc_apply V c k 9 h]
  unfold Cert.Spec.colSum
  rw [show 10000 * (9 + 1) = 100000 by norm_num, ← Fin.sum_univ_eq_sum_range]
  refine Finset.sum_congr rfl fun r _ => ?_
  unfold colSeq
  rw [dif_pos r.isLt]

/-- The 1 x 1 array has one index. -/
theorem idx_one (y : S1x1.Idx) : y = ix2 (0 : Fin 1) (0 : Fin 1) := by
  funext a; apply Fin.ext
  match a with
  | ⟨0, _⟩ => exact Nat.lt_one_iff.mp (idx2_lt0 y)
  | ⟨1, _⟩ => exact Nat.lt_one_iff.mp (idx2_lt1 y)

/-- WHAT THE LAST POINT WRITES BACK: the pooled value. -/
theorem flushed_last (c : Dev nD) (t : Fin cfg2.N) (ht : t.val = 9) (y : ((cfg2.win 4).xblock (cfg2.grid.coords t)).Idx) :
    (R2.dat (F := Ideal) V c).flushed 4 t y
      = Cert.Spec.poolVal (V c main_v57) (V c main_v58) (V c main_arg8) (V c main_v59) := by
  show (R2.dat (F := Ideal) V c).after 4 t y = _
  rw [R2.after_4]
  obtain ⟨n, hn⟩ := t
  have ht' : n = 9 := ht
  subst ht'
  refine (congrArg (R2.outFin (R2.acc (F := Ideal) V c 9 hn) (R2.iblk (F := Ideal) V c 2 ⟨9, hn⟩) (R2.iblk (F := Ideal) V c 3 ⟨9, hn⟩)) (idx_one y)).trans ?_
  refine (outFin_apply _ _ _).trans ?_
  unfold Cert.Spec.poolVal
  exact congrArg₂ (fun p q : EReal => p + q)
    (Finset.sum_congr rfl fun k _ =>
      congrArg₂ (fun p q : EReal => p * ((1 / 100000 : ℝ) : EReal) * q) (acc_last V c k hn) (blk2_apply V c ⟨9, hn⟩ k))
    (blk3_apply V c ⟨9, hn⟩)

/-- An index of the result array is in point `t`'s block iff each coordinate is in the block's range on its axis. -/
theorem mem_blk4 (t : Fin cfg2.N) (i : S1x1.Idx) :
    i ∈ ((cfg2.win 4).blk t).view.set ↔ ∀ a : Fin 2, win2_4.index t a * S1x1.size a ≤ (i a).val ∧ (i a).val < win2_4.index t a * S1x1.size a + S1x1.size a := by
  show i ∈ ((View.whole main_v60).slice (win2_4.rect t)).set ↔ _
  rw [View.set_slice_whole, Rect.mem_set_unit]
  exact Iff.rfl

/-- The last point's block is the whole result array, and that point writes it back. -/
theorem cover4 (i : S1x1.Idx) : ∃ t : Fin cfg2.N, (cfg2.win 4).flush t = true ∧ i ∈ ((cfg2.win 4).blk t).view.set := by
  have h9 : 9 < cfg2.N := by rw [show cfg2.N = 10 from N_2]; norm_num
  refine ⟨⟨9, h9⟩, (flush2_4 ⟨9, h9⟩).mpr rfl, ?_⟩
  obtain ⟨-, -, -, -, -, -, -, -, e0, e1⟩ := idx_facts ⟨9, h9⟩
  rw [mem_blk4]
  intro a
  match a with
  | ⟨0, _⟩ =>
    show win2_4.index ⟨9, h9⟩ (0 : Fin 2) * 1 ≤ (i 0).val ∧ (i 0).val < win2_4.index ⟨9, h9⟩ (0 : Fin 2) * 1 + 1
    have := idx2_lt0 i; omega
  | ⟨1, _⟩ =>
    show win2_4.index ⟨9, h9⟩ (1 : Fin 2) * 1 ≤ (i 1).val ∧ (i 1).val < win2_4.index ⟨9, h9⟩ (1 : Fin 2) * 1 + 1
    have := idx2_lt1 i; omega

/-- THE RESULT ARRAY after the run: the pooled value of the arrays the region finds. -/
theorem final2 (c : Dev nD) :
    (R2.dat (F := Ideal) V c).arrAt 4 cfg2.N
      = (Cert.Spec.pool (V c main_v57) (V c main_v58) (V c main_arg8) (V c main_v59) : S1x1.Idx → EReal) :=
  (R2.dat (F := Ideal) V c).arrAt_eq_of_cover 4 _
    (fun t hf => funext fun y => flushed_last V c t
      (by have h := (flush2_4 t).mp hf; have hN : t.val < 10 := lt_of_lt_of_eq t.isLt (show cfg2.N = 10 from N_2); omega) y)
    cover4

end Cert.KernelIdeal.Val2

end
-- ==== Proof.RefVal.lean ====
/-
  The reference's result as a composition of whole-array functions on the extended reals.

  The reference is a two-layer graph convolution, a mean over the nodes and a final affine map. The edge list enters it
  only through one aggregation over the graph, `agg e`, applied twice: every listed edge (the 1000000 given ones, then one
  self-loop per node) carries its source's row, scaled by the product of its two ends' inverse square root degrees,
  into its target's row. The aggregation is kept as ONE function of the edge list and of the array it aggregates; its
  gathers, its scatter-adds and the inverse square root are never opened.

  Around the two aggregations stand three pieces that are read entry by entry: the product of the node features with
  the first weights (`mmRef`); the bias row added, the clamp at zero and the product with the second weights
  (`layerRef`); and the bias row added, the clamp at zero, the sum down each column, the division by 100000, the product
  with the weight column and the last bias (`poolRef`). Each is the specification's function of the same name: a host
  product at entry (p, q) is the sum over k of left (p, k) times right (k, q); a row spread over all rows reads the row;
  the zero word is 0 and max with it is the clamp; the column sum starts from 0, and 0 + s = s; the word 0x47C35000 is
  the real 100000, and a division by a nonzero real is the product with its reciprocal on every extended real, the
  infinities included. Only these laws and congruence are used: nothing needs an entry to be finite.
-/
import proofs.«129383_j28845000360148_1_alg».proof.Proof.RefRead
import proofs.«129383_j28845000360148_1_alg».proof.Proof.Spec
import proofs.«129383_j28845000360148_1_alg».proof.Proof.LibPlainDot
import Idealize.ShloMosaic.Lib.ValueIdx
import Idealize.ShloMosaic.Lib.ValueLayout
import Idealize.ShloMosaic.PureOps.Ideal.Laws

noncomputable section

namespace Cert.RefVal

open Cert.ReferenceIdeal Cert.ReferenceIdeal.Gen Idealize.ShloMosaic Idealize.ShloMosaic.TcCoe Idealize.SL.Sem Idealize.ShloMosaic.StableHlo Idealize.ShloMosaic.ValueIdx
open scoped BigOperators

/-- The edge list: two rows of 1000000 node numbers, sources above targets. -/
abbrev Edges : Type := IVec S2x1000000 32

/-- The source of every edge, followed by every node once (its self-loop): 1100000 node numbers. -/
def src (e : Edges) : IVec S1100000 32 :=
  concatenate S1100000 0 [⟨S1000000, (shapeCast _ (extractStridedSlice S1x1000000 ![0, 0] e slices_S2x1000000_S1x1000000_0_0) shapeCasts_S1x1000000_S1000000)⟩, ⟨S100000, (iotaInDim S100000 32 0)⟩] concatenates_S1000000_S100000_S1100000_d0

/-- The target of every edge, followed by every node once. -/
def dst (e : Edges) : IVec S1100000 32 :=
  concatenate S1100000 0 [⟨S1000000, (shapeCast _ (extractStridedSlice S1x1000000 ![1, 0] e slices_S2x1000000_S1x1000000_1_0) shapeCasts_S1x1000000_S1000000)⟩, ⟨S100000, (iotaInDim S100000 32 0)⟩] concatenates_S1000000_S100000_S1100000_d0

/-- A negative node number counts from the end: 100000 is added to it. -/
def wrap (v : IVec S1100000 32) : IVec S1100000 32 :=
  select (cmpi .slt v (broadcastInDim S1100000 ![] bcast_S_S1100000 (constantI S_ 32 0#32))) (addi v (broadcastInDim S1100000 ![] bcast_S_S1100000 (constantI S_ 32 100000#32))) v

/-- The inverse square root of every node's degree (the number of listed edges into it, its self-loop included, and at least 1e-12). -/
def dinv (e : Edges) : FVec Ideal S100000 .f32 :=
  Host.rsqrt (maximumf (Host.scatterAdd scatter_S100000_S1100000x1_S1100000_n_0_0_1 (broadcastInDim S100000 ![] bcast_S_S100000 (constant S_ .f32 0x00000000#32)) (broadcastInDim S1100000x1 ![0] bcast_S1100000_S1100000x1_0 (dst e)) (broadcastInDim S1100000 ![] bcast_S_S1100000 (constant S_ .f32 0x3F800000#32))) (broadcastInDim S100000 ![] bcast_S_S100000 (constant S_ .f32 0x2B8CBCCC#32)))

/-- Every listed edge's weight: the product of its two ends' inverse square root degrees. -/
def nrm (e : Edges) : FVec Ideal S1100000 .f32 :=
  mulf (Host.gather gather_S100000_S1100000x1_S1100000_n_0_n_n_0_1_1 (dinv e) (broadcastInDim S1100000x1 ![0] bcast_S1100000_S1100000x1_0 (wrap (src e)))) (Host.gather gather_S100000_S1100000x1_S1100000_n_0_n_n_0_1_1 (dinv e) (broadcastInDim S1100000x1 ![0] bcast_S1100000_S1100000x1_0 (wrap (dst e))))

/-- The aggregation over the graph: every listed edge carries its source's row of `h`, scaled by the edge's weight, into its
    target's row, the rows arriving at one node added up from zero. -/
def agg (e : Edges) (h : FVec Ideal S100000x64 .f32) : FVec Ideal S100000x64 .f32 :=
  Host.scatterAdd scatter_S100000x64_S1100000x1_S1100000x64_1_0_0_1 (broadcastInDim S100000x64 ![] bcast_S_S100000x64 (constant S_ .f32 0x00000000#32)) (broadcastInDim S1100000x1 ![0] bcast_S1100000_S1100000x1_0 (dst e)) (mulf (Host.gather gather_S100000x64_S1100000x1_S1100000x64_1_0_n_n_0_1_164 h (broadcastInDim S1100000x1 ![0] bcast_S1100000_S1100000x1_0 (wrap (src e)))) (broadcastInDim S1100000x64 ![0, 1] bcast_S1100000x1_S1100000x64_0_1 (broadcastInDim S1100000x1 ![0] bcast_S1100000_S1100000x1_0 (nrm e))))

/-- The first layer's product of the node features and its weights, as the reference spells it. -/
def mmRef (x : FVec Ideal S100000x64 .f32) (w : FVec Ideal S64x64 .f32) : FVec Ideal S100000x64 .f32 :=
  Host.dotGeneral dot_S100000x64_S64x64_S100000x64_1_0_0_1_n_n none x w

/-- The second layer's product, as the reference spells it: the bias row added to every row, the clamp at zero, the product
    with the weights. -/
def layerRef (a : FVec Ideal S100000x64 .f32) (b : FVec Ideal S1x64 .f32) (w : FVec Ideal S64x64 .f32) : FVec Ideal S100000x64 .f32 :=
  Host.dotGeneral dot_S100000x64_S64x64_S100000x64_1_0_0_1_n_n none (maximumf (addf a (broadcastInDim S100000x64 ![0, 1] bcast_S1x64_S100000x64_0_1 b)) (broadcastInDim S100000x64 ![] bcast_S_S100000x64 (constant S_ .f32 0x00000000#32))) w

/-- The pooled result, as the reference spells it: the bias row added, the clamp at zero, the sum down every column from zero,
    the division by 100000, the product with the weight column, the bias added. -/
def poolRef (a : FVec Ideal S100000x64 .f32) (b : FVec Ideal S1x64 .f32) (fw : FVec Ideal S64x1 .f32) (fb : FVec Ideal S1x1 .f32) : FVec Ideal S1x1 .f32 :=
  addf (Host.dotGeneral dot_S1x64_S64x1_S1x1_1_0_0_1_n_n none (Host.divf (broadcastInDim S1x64 ![1] bcast_S64_S1x64_1 (Host.reduceAdd (maximumf (addf a (broadcastInDim S100000x64 ![0, 1] bcast_S1x64_S100000x64_0_1 b)) (broadcastInDim S100000x64 ![] bcast_S_S100000x64 (constant S_ .f32 0x00000000#32))) (constant S_ .f32 0x00000000#32) reducesTo_S100000x64_S64_d0 h_S_)) (broadcastInDim S1x64 ![] bcast_S_S1x64 (constant S_ .f32 0x47C35000#32))) fw) fb

/-! ## The layout operations the reference uses, read at an entry -/

/-- A 1 x 64 row spread over 100000 rows reads, at (p, k), the row at k. -/
theorem rows_apply (b : FVec Ideal S1x64 .f32) (p : Fin 100000) (k : Fin 64) :
    broadcastInDim S100000x64 ![0, 1] bcast_S1x64_S100000x64_0_1 b (ix2 p k) = b (ix2 0 k) :=
  broadcastInDim_apply _ bcast_S1x64_S100000x64_0_1 b (ix2 p k) (ix2 0 k) (fun a => match a with
    | ⟨0, _⟩ => by show 0 = if (1 : Nat) = 1 then 0 else p.val; rw [if_pos rfl]
    | ⟨1, _⟩ => by show k.val = if (64 : Nat) = 1 then 0 else k.val; rw [if_neg (by decide)])

/-- The zero word spread over the 100000 x 64 array is the extended real 0 at every entry. -/
theorem zeros_apply (i : S100000x64.Idx) :
    broadcastInDim S100000x64 ![] bcast_S_S100000x64 (constant (F := Ideal) S_ .f32 0x00000000#32) i = 0 :=
  (broadcastInDim_apply _ bcast_S_S100000x64 (constant (F := Ideal) S_ .f32 0x00000000#32) i ix0 (fun a => a.elim0)).trans
    Ideal.ofBits_zero_f32

/-- The bias row added and the clamp at zero, at an entry: the specification's `actAt`. -/
theorem act_apply (a : FVec Ideal S100000x64 .f32) (b : FVec Ideal S1x64 .f32) (p : Fin 100000) (k : Fin 64) :
    maximumf (addf a (broadcastInDim S100000x64 ![0, 1] bcast_S1x64_S100000x64_0_1 b)) (broadcastInDim S100000x64 ![] bcast_S_S100000x64 (constant (F := Ideal) S_ .f32 0x00000000#32)) (ix2 p k)
      = Cert.Spec.actAt a b p k := by
  rw [maximumf_apply, addf_apply, rows_apply, zeros_apply]
  rfl

/-! ## The three products and the column sums -/

/-- The first product is the specification's: entry (p, q) is the sum over k of x (p, k) times w (k, q). -/
theorem mmRef_eq (x : FVec Ideal S100000x64 .f32) (w : FVec Ideal S64x64 .f32) : mmRef x w = Cert.Spec.mm x w := by
  funext i
  obtain ⟨p, q, rfl⟩ : ∃ (p : Fin 100000) (q : Fin 64), i = ix2 p q := ⟨i 0, i 1, eq_ix2 i⟩
  exact Cert.PlainDot.dotGeneral_apply (R := 100000) (K := 64) (C := 64) dot_S100000x64_S64x64_S100000x64_1_0_0_1_n_n rfl rfl rfl rfl rfl rfl none .single x w p q

/-- The second layer's product is the specification's: its left factor at (p, k) is the clamped, biased entry. -/
theorem layerRef_eq (a : FVec Ideal S100000x64 .f32) (b : FVec Ideal S1x64 .f32) (w : FVec Ideal S64x64 .f32) :
    layerRef a b w = Cert.Spec.layer a b w := by
  funext i
  obtain ⟨p, q, rfl⟩ : ∃ (p : Fin 100000) (q : Fin 64), i = ix2 p q := ⟨i 0, i 1, eq_ix2 i⟩
  refine (Cert.PlainDot.dotGeneral_apply (R := 100000) (K := 64) (C := 64) dot_S100000x64_S64x64_S100000x64_1_0_0_1_n_n rfl rfl rfl rfl rfl rfl none .single _ w p q).trans ?_
  exact Finset.sum_congr rfl fun k _ => congrArg (· * w (ix2 k q)) (act_apply a b p k)

/-- The word 0x47C35000 is the real 100000: sign 0, exponent 143, fraction 4411392, so (2^23 + 4411392) / 2^7. -/
theorem ofBits_100000 : Ideal.ofBits .f32 0x47C35000#32 = ((100000 : ℝ) : EReal) := by
  simp [Ideal.ofBits, Ideal.ieee, -EReal.coe_mul]; norm_num

/-- The sum down a column, from the zero word, at column k: the sum over the 100000 rows. -/
theorem colsum_apply (y : FVec Ideal S100000x64 .f32) (k : Fin 64) :
    Host.reduceAdd (F := Ideal) y (constant (F := Ideal) S_ .f32 0x00000000#32) reducesTo_S100000x64_S64_d0 h_S_ (ix1 k)
      = ∑ r : Fin 100000, y (ix2 r k) := by
  unfold Host.reduceAdd
  rw [Ideal.hostReduceAdd_def, Ideal.hostReduceAdd_single reducesTo_S100000x64_S64_d0 (by decide)]
  show Ideal.ofBits .f32 0x00000000#32 + _ = _
  rw [Ideal.ofBits_zero_f32, zero_add]
  exact Finset.sum_congr rfl fun r _ => congrArg y (funext fun a => Fin.ext (by match a with | ⟨0, _⟩ => rfl | ⟨1, _⟩ => rfl))

/-- A 64-vector laid as a 1 x 64 row reads, at (0, k), the vector at k. -/
theorem asRow_apply (v : FVec Ideal S64 .f32) (k : Fin 64) :
    broadcastInDim S1x64 ![1] bcast_S64_S1x64_1 v (ix2 (0 : Fin 1) k) = v (ix1 k) :=
  broadcastInDim_apply _ bcast_S64_S1x64_1 v (ix2 (0 : Fin 1) k) (ix1 k) (fun a => match a with
    | ⟨0, _⟩ => by show k.val = if (64 : Nat) = 1 then 0 else k.val; rw [if_neg (by decide)])

/-- The word of 100000 spread over a 1 x 64 row is the real 100000 at every entry. -/
theorem count_apply (i : S1x64.Idx) :
    broadcastInDim S1x64 ![] bcast_S_S1x64 (constant (F := Ideal) S_ .f32 0x47C35000#32) i = ((100000 : ℝ) : EReal) :=
  (broadcastInDim_apply _ bcast_S_S1x64 (constant (F := Ideal) S_ .f32 0x47C35000#32) i ix0 (fun a => a.elim0)).trans ofBits_100000

/-- The pooled readout is the specification's: the quotient of a column's sum by 100000 is the sum times 1/100000. -/
theorem poolRef_eq (a : FVec Ideal S100000x64 .f32) (b : FVec Ideal S1x64 .f32) (fw : FVec Ideal S64x1 .f32) (fb : FVec Ideal S1x1 .f32) :
    poolRef a b fw fb = Cert.Spec.pool a b fw fb := by
  funext i
  obtain ⟨u, v, rfl⟩ : ∃ (u : Fin 1) (v : Fin 1), i = ix2 u v := ⟨i 0, i 1, eq_ix2 i⟩
  obtain rfl : u = 0 := Subsingleton.elim _ _
  obtain rfl : v = 0 := Subsingleton.elim _ _
  unfold poolRef
  rw [addf_apply]
  refine congrArg (· + fb (ix2 0 0)) ?_
  refine (Cert.PlainDot.dotGeneral_apply (R := 1) (K := 64) (C := 1) dot_S1x64_S64x1_S1x1_1_0_0_1_n_n rfl rfl rfl rfl rfl rfl none .single _ fw 0 0).trans ?_
  refine Finset.sum_congr rfl fun k _ => congrArg (· * fw (ix2 k 0)) ?_
  show Ideal.div _ _ = _
  rw [asRow_apply, count_apply, Ideal.div_coe (by norm_num), colsum_apply]
  exact congrArg (· * (((1 / 100000 : ℝ)) : EReal)) (Finset.sum_congr rfl fun r _ => act_apply a b r k)

/-! ## The reference's term, folded and read -/

set_option maxRecDepth 8192 in
/-- The reference's result is the three pieces around the two aggregations: the same operations in the same order, so
    the two sides are one term once the names are opened. -/
theorem ref_fold (m : (ℓ : Loc nD τ sig) → Buf (Elt Ideal) ℓ) (c : Dev nD) :
    Cert.ReferenceIdeal.Value.res_main_v100 (F := Ideal) m c
      = poolRef (agg (m ((c.tc : Thread nD τ).loc main_arg1)) (layerRef (agg (m ((c.tc : Thread nD τ).loc main_arg1)) (mmRef (m ((c.tc : Thread nD τ).loc main_arg0)) (m ((c.tc : Thread nD τ).loc main_arg3)))) (broadcastInDim S1x64 ![1] bcast_S64_S1x64_1 (m ((c.tc : Thread nD τ).loc main_arg4))) (m ((c.tc : Thread nD τ).loc main_arg5)))) (broadcastInDim S1x64 ![1] bcast_S64_S1x64_1 (m ((c.tc : Thread nD τ).loc main_arg6))) (m ((c.tc : Thread nD τ).loc main_arg8)) (broadcastInDim S1x1 ![1] bcast_S1_S1x1_1 (m ((c.tc : Thread nD τ).loc main_arg9))) := by
  unfold Cert.ReferenceIdeal.Value.res_main_v100 poolRef layerRef mmRef agg nrm dinv wrap src dst
  rfl

/-- THE REFERENCE IS THE SPECIFICATION around the shared aggregation: the pooled readout of the aggregated second
    layer of the aggregated first product, the biases as the reference's own 1 x 64 rows and 1 x 1 entry. -/
theorem ref_eq (m : (ℓ : Loc nD τ sig) → Buf (Elt Ideal) ℓ) (c : Dev nD) :
    Cert.ReferenceIdeal.Value.res_main_v100 (F := Ideal) m c
      = (Cert.Spec.pool (agg (m ((c.tc : Thread nD τ).loc main_arg1)) (Cert.Spec.layer (agg (m ((c.tc : Thread nD τ).loc main_arg1)) (Cert.Spec.mm (m ((c.tc : Thread nD τ).loc main_arg0)) (m ((c.tc : Thread nD τ).loc main_arg3)))) (broadcastInDim S1x64 ![1] bcast_S64_S1x64_1 (m ((c.tc : Thread nD τ).loc main_arg4))) (m ((c.tc : Thread nD τ).loc main_arg5)))) (broadcastInDim S1x64 ![1] bcast_S64_S1x64_1 (m ((c.tc : Thread nD τ).loc main_arg6))) (m ((c.tc : Thread nD τ).loc main_arg8)) (broadcastInDim S1x1 ![1] bcast_S1_S1x1_1 (m ((c.tc : Thread nD τ).loc main_arg9))) : S1x1.Idx → EReal) := by
  rw [ref_fold, mmRef_eq, layerRef_eq, poolRef_eq]

end Cert.RefVal

end
-- ==== Proof.SpecRows.lean ====
/- The specification reads a bias row only at row 0 and the final bias only at entry (0, 0): two bias arrays that agree
   there give the same layer and the same pooled result. -/
import proofs.«129383_j28845000360148_1_alg».proof.Proof.Spec

set_option maxRecDepth 16384

noncomputable section

namespace Cert.Spec

open Idealize.ShloMosaic Idealize.ShloMosaic.ValueIdx
open scoped BigOperators

theorem actAt_congr (a : SN.Idx → EReal) (b b' : SRow.Idx → EReal) (h : ∀ k : Fin 64, b (ix2 0 k) = b' (ix2 0 k))
    (p : Fin 100000) (k : Fin 64) : actAt a b p k = actAt a b' p k := by
  unfold actAt; exact congrArg (fun z => max (a (ix2 p k) + z) 0) (h k)

theorem layerAt_congr (a : SN.Idx → EReal) (b b' : SRow.Idx → EReal) (w : SW.Idx → EReal)
    (h : ∀ k : Fin 64, b (ix2 0 k) = b' (ix2 0 k)) (p : Fin 100000) (q : Fin 64) : layerAt a b w p q = layerAt a b' w p q := by
  unfold layerAt
  exact Finset.sum_congr rfl fun k _ => congrArg (fun z => z * w (ix2 k q)) (actAt_congr a b b' h p k)

theorem layer_congr (a : SN.Idx → EReal) (b b' : SRow.Idx → EReal) (w : SW.Idx → EReal)
    (h : ∀ k : Fin 64, b (ix2 0 k) = b' (ix2 0 k)) : layer a b w = layer a b' w :=
  funext fun i => layerAt_congr a b b' w h (i 0) (i 1)

theorem colSum_congr (a : SN.Idx → EReal) (b b' : SRow.Idx → EReal) (h : ∀ k : Fin 64, b (ix2 0 k) = b' (ix2 0 k))
    (k : Fin 64) : colSum a b k = colSum a b' k := by
  unfold colSum
  exact Finset.sum_congr rfl fun r _ => actAt_congr a b b' h r k

theorem poolVal_congr (a : SN.Idx → EReal) (b b' : SRow.Idx → EReal) (fw : SCol.Idx → EReal) (fb fb' : SOne.Idx → EReal)
    (h : ∀ k : Fin 64, b (ix2 0 k) = b' (ix2 0 k)) (hf : fb (ix2 0 0) = fb' (ix2 0 0)) : poolVal a b fw fb = poolVal a b' fw fb' := by
  unfold poolVal
  have hs : (∑ k : Fin 64, (colSum a b k * ((1 / 100000 : ℝ) : EReal)) * fw (ix2 k 0))
      = ∑ k : Fin 64, (colSum a b' k * ((1 / 100000 : ℝ) : EReal)) * fw (ix2 k 0) :=
    Finset.sum_congr rfl fun k _ => congrArg (fun z => (z * ((1 / 100000 : ℝ) : EReal)) * fw (ix2 k 0)) (colSum_congr a b b' h k)
  rw [hs, hf]

theorem pool_congr (a : SN.Idx → EReal) (b b' : SRow.Idx → EReal) (fw : SCol.Idx → EReal) (fb fb' : SOne.Idx → EReal)
    (h : ∀ k : Fin 64, b (ix2 0 k) = b' (ix2 0 k)) (hf : fb (ix2 0 0) = fb' (ix2 0 0)) : pool a b fw fb = pool a b' fw fb' :=
  funext fun _ => poolVal_congr a b b' fw fb fb' h hf

end Cert.Spec

end
-- ==== Proof.Bridge.lean ====
/- The idealized kernel's result and the reference's are one extended real. The kernel's result array after the run is,
   reading backwards through the run: the pooled readout of what region 2 was entered with, which is the edge
   aggregation of region 1's result, which is the layer formula of what region 1 was entered with, which is the edge
   aggregation of region 0's result, the matrix product of the node features and the first weights. The reference's
   result is the same composition. The two spell the edge aggregation over their own printed dimension records, which
   are equal field by field; the kernel reshapes a bias vector into a row where the reference broadcasts it, and the two
   rows agree at row 0, the only place the formulas read them. -/
import proofs.«129383_j28845000360148_1_alg».proof.Proof.KernelIdeal.Chain
import proofs.«129383_j28845000360148_1_alg».proof.Proof.KernelIdeal.Val01
import proofs.«129383_j28845000360148_1_alg».proof.Proof.KernelIdeal.Val2
import proofs.«129383_j28845000360148_1_alg».proof.Proof.RefVal
import proofs.«129383_j28845000360148_1_alg».proof.Proof.SpecRows
import Idealize.ShloMosaic.Lib.ValueLayout

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal Cert.KernelIdeal.Gen Cert.KernelIdeal.Run Cert.KernelIdeal.Chain

variable (m : (ℓ : Loc nD τ sig) → Buf (Elt Ideal) ℓ)

/-! ## The kernel's result, read backwards through the run -/

/-- Region 0 leaves the product of the node features and the first weights. -/
theorem region0 (c : Dev nD) :
    W2 m c (Proc.devRef .tc main_v29)
      = (Cert.Spec.mm (m ((c : Thread nD τ).loc main_arg0)) (m ((c : Thread nD τ).loc main_arg3)) : S100000x64.Idx → EReal) := by
  have h := Cert.KernelIdeal.Val01.final0 (Run.V1 m) c
  rw [show Run.V1 m c main_arg0 = W1 m c (Proc.devRef .tc main_arg0) from rfl, show Run.V1 m c main_arg3 = W1 m c (Proc.devRef .tc main_arg3) from rfl,
    W1_launch m c main_arg0 (by decide), W1_launch m c main_arg3 (by decide)] at h
  exact (W2_arr m c 2).trans h

/-- Region 1 leaves the layer formula of the aggregated first product. -/
theorem region1 (c : Dev nD) :
    W4 m c (Proc.devRef .tc main_v44)
      = (Cert.Spec.layer (agg (edges m c) (Cert.Spec.mm (m ((c : Thread nD τ).loc main_arg0)) (m ((c : Thread nD τ).loc main_arg3))))
          (shapeCast _ (m ((c : Thread nD τ).loc main_arg4)) shapeCasts_S64_S1x64) (m ((c : Thread nD τ).loc main_arg5)) : S100000x64.Idx → EReal) := by
  have h := Cert.KernelIdeal.Val01.final1 (Run.V3 m) c
  rw [show Run.V3 m c main_v42 = W3 m c (Proc.devRef .tc main_v42) from rfl, show Run.V3 m c main_v43 = W3 m c (Proc.devRef .tc main_v43) from rfl,
    show Run.V3 m c main_arg5 = W3 m c (Proc.devRef .tc main_arg5) from rfl, W3_agg, W3_b1, W3_w2, region0] at h
  exact (W4_arr m c 3).trans h

/-- THE KERNEL'S RESULT as a function of the argument arrays. -/
theorem kernel_result (c : Dev nD) :
    W6 m c (Proc.devRef .tc main_v60)
      = (Cert.Spec.pool
          (agg (edges m c) (Cert.Spec.layer (agg (edges m c) (Cert.Spec.mm (m ((c : Thread nD τ).loc main_arg0)) (m ((c : Thread nD τ).loc main_arg3))))
            (shapeCast _ (m ((c : Thread nD τ).loc main_arg4)) shapeCasts_S64_S1x64) (m ((c : Thread nD τ).loc main_arg5))))
          (shapeCast _ (m ((c : Thread nD τ).loc main_arg6)) shapeCasts_S64_S1x64) (m ((c : Thread nD τ).loc main_arg8))
          (shapeCast _ (m ((c : Thread nD τ).loc main_arg9)) shapeCasts_S1_S1x1) : S1x1.Idx → EReal) := by
  have h := Cert.KernelIdeal.Val2.final2 (Run.V5 m) c
  rw [show Run.V5 m c main_v57 = W5 m c (Proc.devRef .tc main_v57) from rfl, show Run.V5 m c main_v58 = W5 m c (Proc.devRef .tc main_v58) from rfl,
    show Run.V5 m c main_arg8 = W5 m c (Proc.devRef .tc main_arg8) from rfl, show Run.V5 m c main_v59 = W5 m c (Proc.devRef .tc main_v59) from rfl,
    W5_agg, W5_b2, W5_fw, W5_fb, region1] at h
  exact (W6_arr m c 4).trans h

/-! ## The two programs' spellings meet -/

/-- The edge aggregation over the reference's dimension records is the one over the kernel's: the records are equal
    field by field. -/
theorem agg_eq (e : Cert.RefVal.Edges) (h : FVec Ideal Cert.ReferenceIdeal.S100000x64 .f32) : Cert.RefVal.agg e h = agg e h := rfl

/-- A 64-vector reshaped to a row and the same vector broadcast to a row agree at row 0. -/
theorem row_eq (v : FVec Ideal S64 .f32) (k : Fin 64) :
    (broadcastInDim Cert.ReferenceIdeal.S1x64 ![1] Cert.ReferenceIdeal.Facts₀.bcast_S64_S1x64_1 v : Cert.Spec.SRow.Idx → EReal) (ix2 0 k)
      = (shapeCast S1x64 v shapeCasts_S64_S1x64 : Cert.Spec.SRow.Idx → EReal) (ix2 0 k) :=
  (Cert.RefVal.asRow_apply v k).trans (shapeCast_a_1a_apply v shapeCasts_S64_S1x64 0 k).symm

/-- A 1-vector reshaped to a 1 x 1 array and the same vector broadcast to one agree at the one entry. -/
theorem one_eq (v : FVec Ideal S1 .f32) :
    (broadcastInDim Cert.ReferenceIdeal.S1x1 ![1] Cert.ReferenceIdeal.Facts₀.bcast_S1_S1x1_1 v : Cert.Spec.SOne.Idx → EReal) (ix2 0 0)
      = (shapeCast S1x1 v shapeCasts_S1_S1x1 : Cert.Spec.SOne.Idx → EReal) (ix2 0 0) :=
  (broadcastInDim_apply _ Cert.ReferenceIdeal.Facts₀.bcast_S1_S1x1_1 v (ix2 (0 : Fin 1) (0 : Fin 1)) (ix1 (0 : Fin 1)) (fun a => match a with
    | ⟨0, _⟩ => by show 0 = if (1 : Nat) = 1 then 0 else 0; rw [if_pos rfl])).trans (shapeCast_a_1a_apply v shapeCasts_S1_S1x1 0 0).symm

/-- THE BRIDGE: from memories that agree on the arguments, the reference's result is the kernel's. -/
theorem result_eq (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9)) :
    Cert.ReferenceIdeal.Value.res_main_v100 (F := Ideal) m' c = W6 m c (Proc.devRef .tc main_v60) := by
  rw [Cert.RefVal.ref_eq m' c, kernel_result m c, h0, h1, h3, h4, h5, h6, h8, h9, agg_eq, agg_eq]
  refine (Cert.Spec.pool_congr _ _ _ _ _ _ (fun k => row_eq _ k) (one_eq _)).trans ?_
  exact congrArg (fun a => Cert.Spec.pool (agg (edges m c) a) _ _ _) (Cert.Spec.layer_congr _ _ _ _ (fun k => row_eq _ k))

end Cert.Bridge

end
-- ==== Proof.lean ====
/- Both programs are a two-layer graph convolution followed by a mean over the nodes and a 64 x 1 linear map. The kernel
   runs the three dense stages (x·W1; relu(· + b1)·W2; the column means of relu(· + b2), contracted with the final
   weights, plus the final bias) as three grids of ten row tiles each and leaves the gather / scale / scatter-add over the
   edges to the host, where the reference runs everything. On the extended reals the two agree entry by entry: a tile's
   rows of a matrix product are those rows of the whole product; the ten tiles' column sums add up to the column sums
   over all rows (addition is commutative and associative there, infinities included); the kernel's product with the
   named constant 1/100000 is the reference's quotient by 100000. The edge aggregation is the same function of the same
   arguments on both sides and is never opened. No finiteness of the inputs is used. -/
import proofs.«129383_j28845000360148_1_alg».proof.Defs
import proofs.«129383_j28845000360148_1_alg».proof.Proof.Gen.Kernel
import proofs.«129383_j28845000360148_1_alg».proof.Proof.Gen.KernelIdeal
import proofs.«129383_j28845000360148_1_alg».proof.Proof.Gen.ReferenceIdeal
import proofs.«129383_j28845000360148_1_alg».proof.Proof.Gen.Pre_finite_inputs
import proofs.«129383_j28845000360148_1_alg».proof.Proof.Kernel.Run
import proofs.«129383_j28845000360148_1_alg».proof.Proof.KernelIdeal.Run
import proofs.«129383_j28845000360148_1_alg».proof.Proof.RefRead
import proofs.«129383_j28845000360148_1_alg».proof.Proof.Bridge
import Idealize.ShloMosaic.PureOps.IdealRules
import Idealize.ShloMosaic.Adequacy
import Idealize.ShloMosaic.Init

noncomputable section

namespace Cert.Proof

open Idealize.ShloMosaic Idealize.SL.Sem

/-- The word-level kernel runs to the end, faults nowhere and leaves its arguments as launched: the run of its three
    regions, the result's contents dropped. -/
theorem frame_p : Cert.frame_Kernel := fun m ρ _ =>
  (θ_run Cert.Kernel.defs _ _).mono (fun _ h c => (h c).2) (Cert.Kernel.Run.run (F := Bits) m ρ)

/-- The same for the idealized kernel. -/
theorem frame_pi : Cert.frame_KernelIdeal := fun m ρ _ =>
  (θ_run Cert.KernelIdeal.defs _ _).mono (fun _ h c => (h c).2) (Cert.KernelIdeal.Run.run (F := Ideal) m ρ)

/-- The reference has no kernel: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the ideal pass: the certificate's table gives the name "inv_100000" the value 1/100000. -/
theorem preserves : Cert.preserves_Kernel_KernelIdeal :=
  IdealRules.named_const.statement Cert.KernelIdeal.κ "inv_100000" .f32 0x3727C5AC#32 ((1 / 100000 : ℝ) : EReal) rfl

/-- At the ideal instance, from memories that agree on the arguments, both programs run to the end, leave the arguments as
    launched, and end with the same 1 x 1 result: the kernel's result array after its run is the reference's term. -/
theorem algebraic : Cert.algebraic_KernelIdeal_ReferenceIdeal := by
  intro m ρ m' ρ' _ hagree
  refine ⟨fun c => Cert.KernelIdeal.Run.W6 m c (Proc.devRef .tc Cert.KernelIdeal.main_v60), Cert.KernelIdeal.Run.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, _, h3, h4, h5, h6, _, h8, h9⟩ := hagree c
  exact Cert.Bridge.result_eq m m' c h0 h1 h3 h4 h5 h6 h8 h9

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
